-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S_ : Shape := ⟨0, ![]⟩

class Facts : Prop where
  bcast_S_S1x2000x256 : S_.BroadcastsInDim S1x2000x256 (![] : Fin 0 → Fin S1x2000x256.rank)
  reducesTo_S1x2000x256_S_d0_1_2 : S1x2000x256.ReducesTo [0, 1, 2] S_
  h_S_ : 0 < S_.numel
  bcast_S_S49x2000x256 : S_.BroadcastsInDim S49x2000x256 (![] : Fin 0 → Fin S49x2000x256.rank)
  reducesTo_S49x2000x256_S_d0_1_2 : S49x2000x256.ReducesTo [0, 1, 2] S_
  bcast_S_S256x32768 : S_.BroadcastsInDim S256x32768 (![] : Fin 0 → Fin S256x32768.rank)
  reducesTo_S256x32768_S_d0_1 : S256x32768.ReducesTo [0, 1] S_
  bcast_S_S32768 : S_.BroadcastsInDim S32768 (![] : Fin 0 → Fin S32768.rank)
  reducesTo_S32768_S_d0 : S32768.ReducesTo [0] S_
  bcast_S_S12544x256 : S_.BroadcastsInDim S12544x256 (![] : Fin 0 → Fin S12544x256.rank)
  reducesTo_S12544x256_S_d0_1 : S12544x256.ReducesTo [0, 1] S_
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S64 .f32) (main_arg8 : FVec F S256 .f32) (main_arg9 : FVec F S256 .f32) (main_arg10 : FVec F S256 .f32) (main_arg11 : FVec F S256 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_v48 main_v49 main_v50

def fn_part1 {F : FTy → Type} [FloatOps F] (main_arg4 : FVec F S12544x256 .f32) (main_arg5 : FVec F S256 .f32) (main_arg6 : FVec F S64 .f32) (main_arg7 : FVec F S64 .f32) (main_arg8 : FVec F S256 .f32) (main_arg9 : FVec F S256 .f32) (main_arg10 : FVec F S256 .f32) (main_arg11 : FVec F S256 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S12544x256 .f32 := Host.absf main_arg4
  let main_cst_6 : FVec F S_ .f32 := constant S_ .f32 0x7F800000#32
  let main_v20 : FVec F S12544x256 .f32 := broadcastInDim S12544x256 ![] bcast_S_S12544x256 main_cst_6
  let main_v21 : IVec S12544x256 1 := cmpf .olt main_v19 main_v20
  let main_c_7 : IVec S_ 1 := constantI S_ 1 1#1
  let main_v22 : IVec S_ 1 := (fun x v => Host.reduce IntOp.andi x v reducesTo_S12544x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1x2000x256 .f32) (main_arg1 : FVec F S49x2000x256 .f32) (main_arg2 : FVec F S256x32768 .f32) (main_arg3 : FVec F S32768 .f32) (main_arg4 : FVec F S12544x256 .f32) (main_arg5 : FVec F S256 .f32) (main_arg6 : FVec F S64 .f32) (main_arg7 : FVec F S64 .f32) (main_arg8 : FVec F S256 .f32) (main_arg9 : FVec F S256 .f32) (main_arg10 : FVec F S256 .f32) (main_arg11 : FVec F S256 .f32) : IVec S_ 1 :=
  let main_v0 : FVec F S1x2000x256 .f32 := Host.absf main_arg0
  let main_cst : FVec F S_ .f32 := constant S_ .f32 0x7F800000#32
  let main_v1 : FVec F S1x2000x256 .f32 := broadcastInDim S1x2000x256 ![] bcast_S_S1x2000x256 main_cst
  let main_v2 : IVec S1x2000x256 1 := cmpf .olt main_v0 main_v1
  let main_c : IVec S_ 1 := constantI S_ 1 1#1
  let main_v3 : IVec S_ 1 := (fun x v => Host.reduce IntOp.andi x v reducesTo_S1x2000x256_S_d0_1_2 h_S_) main_v2 main_c
  let main_v4 : FVec F S49x2000x256 .f32 := Host.absf main_arg1
  let main_cst_0 : FVec F S_ .f32 := constant S_ .f32 0x7F800000#32
  let main_v5 : FVec F S49x2000x256 .f32 := broadcastInDim S49x2000x256 ![] bcast_S_S49x2000x256 main_cst_0
  let main_v6 : IVec S49x2000x256 1 := cmpf .olt main_v4 main_v5
  let main_c_1 : IVec S_ 1 := constantI S_ 1 1#1
  let main_v7 : IVec S_ 1 := (fun x v => Host.reduce IntOp.andi x v reducesTo_S49x2000x256_S_d0_1_2 h_S_) main_v6 main_c_1
  let main_v8 : IVec S_ 1 := andi main_v3 main_v7
  let main_v9 : FVec F S256x32768 .f32 := Host.absf main_arg2
  let main_cst_2 : FVec F S_ .f32 := constant S_ .f32 0x7F800000#32
  let main_v10 : FVec F S256x32768 .f32 := broadcastInDim S256x32768 ![] bcast_S_S256x32768 main_cst_2
  let main_v11 : IVec S256x32768 1 := cmpf .olt main_v9 main_v10
  let main_c_3 : IVec S_ 1 := constantI S_ 1 1#1
  let main_v12 : IVec S_ 1 := (fun x v => Host.reduce IntOp.andi x v reducesTo_S256x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_v13 main_v16
-- ==== Kernel.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S2000x256 : Shape := ⟨2, ![2000, 256]⟩
abbrev S49x256x256 : Shape := ⟨3, ![49, 256, 256]⟩
abbrev S16x256 : Shape := ⟨2, ![16, 256]⟩
abbrev S49x16x256 : Shape := ⟨3, ![49, 16, 256]⟩
abbrev S16x32768 : Shape := ⟨2, ![16, 32768]⟩
abbrev S1x32768 : Shape := ⟨2, ![1, 32768]⟩
abbrev S16x16384 : Shape := ⟨2, ![16, 16384]⟩
abbrev S16x256x64 : Shape := ⟨3, ![16, 256, 64]⟩
abbrev S16x64x256 : Shape := ⟨3, ![16, 64, 256]⟩
abbrev S1x16x256 : Shape := ⟨3, ![1, 16, 256]⟩
abbrev S16x256x1 : Shape := ⟨3, ![16, 256, 1]⟩
abbrev S16x64 : Shape := ⟨2, ![16, 64]⟩
abbrev S16 : Shape := ⟨1, ![16]⟩
abbrev S16x1 : Shape := ⟨2, ![16, 1]⟩
abbrev S1x64 : Shape := ⟨2, ![1, 64]⟩
abbrev S16x64x1 : Shape := ⟨3, ![16, 64, 1]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 17
  | .vmem => 16
  | .smem => 0
  | _ => 0

abbrev bufTy : (tb : Table) → Fin (tcTables nBuf tb) → BufTy
  | .hbm, ⟨0, _⟩ => ⟨S1x2000x256, .f32⟩
  | .hbm, ⟨1, _⟩ => ⟨S49x2000x256, .f32⟩
  | .hbm, ⟨2, _⟩ => ⟨S256x32768, .f32⟩
  | .hbm, ⟨3, _⟩ => ⟨S32768, .f32⟩
  | .hbm, ⟨4, _⟩ => ⟨S12544x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2000x256, .f32⟩
  | .hbm, ⟨13, _⟩ => ⟨S256x32768, .bf16⟩
  | .hbm, ⟨14, _⟩ => ⟨S49x256x256, .f32⟩
  | .hbm, ⟨15, _⟩ => ⟨S49x256x256, .bf16⟩
  | .hbm, ⟨16, _⟩ => ⟨S2000x256, .f32⟩
  | .local _ .vmem, ⟨0, _⟩ => ⟨S16x256, .f32⟩
  | .local _ .vmem, ⟨1, _⟩ => ⟨S16x256, .f32⟩
  | .local _ .vmem, ⟨2, _⟩ => ⟨S49x16x256, .f32⟩
  | .local _ .vmem, ⟨3, _⟩ => ⟨S49x16x256, .f32⟩
  | .local _ .vmem, ⟨4, _⟩ => ⟨S256x32768, .bf16⟩
  | .local _ .vmem, ⟨5, _⟩ => ⟨S32768, .f32⟩
  | .local _ .vmem, ⟨6, _⟩ => ⟨S49x256x256, .bf16⟩
  | .local _ .vmem, ⟨7, _⟩ => ⟨S256, .f32⟩
  | .local _ .vmem, ⟨8, _⟩ => ⟨S64, .f32⟩
  | .local _ .vmem, ⟨9, _⟩ => ⟨S64, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S16x256, .f32⟩
  | .local _ .vmem, ⟨15, _⟩ => ⟨S16x256, .f32⟩
  | _, _ => ⟨S1x2000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S49x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S1x2000x256_S2000x256 : S1x2000x256.ShapeCasts S2000x256
  bitsLt_bf16_f32 : FTy.bits .bf16 < FTy.bits .f32
  shapeCasts_S12544x256_S49x256x256 : S12544x256.ShapeCasts S49x256x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x32768_S256x32768_0_0 : ∀ a, (![0, 0] : Fin 2 → Nat) a + S256x32768.size a ≤ S256x32768.size a
  h_S256x32768 : 0 < S256x32768.numel
  shapeCasts_S256x32768_S256x32768 : S256x32768.ShapeCasts S256x32768
  inb_S32768_S32768_0 : ∀ a, (![0] : Fin 1 → Nat) a + S32768.size a ≤ S32768.size a
  h_S32768 : 0 < S32768.numel
  shapeCasts_S32768_S1x32768 : S32768.ShapeCasts S1x32768
  broadcasts_S1x32768_S16x32768 : S1x32768.Broadcasts S16x32768
  slices_S16x32768_o0_0_S16x16384 : S16x32768.Slices ![0, 0] S16x16384
  shapeCasts_S16x16384_S16x256x64 : S16x16384.ShapeCasts S16x256x64
  slices_S16x32768_o0_16384_S16x16384 : S16x32768.Slices ![0, 16384] S16x16384
  shapeCasts_S16x16384_S16x64x256 : S16x16384.ShapeCasts S16x64x256
  inb_S64_S64_0 : ∀ a, (![0] : Fin 1 → Nat) a + S64.size a ≤ S64.size a
  h_S64 : 0 < S64.numel
  inb_S256_S256_0 : ∀ a, (![0] : Fin 1 → Nat) a + S256.size a ≤ S256.size a
  h_S256 : 0 < S256.numel
  inb_S49x16x256_S1x16x256_0_0_0 : ∀ a, (![0, 0, 0] : Fin 3 → Nat) a + S1x16x256.size a ≤ S49x16x256.size a
  h_S1x16x256 : 0 < S1x16x256.numel
  shapeCasts_S1x16x256_S16x256 : S1x16x256.ShapeCasts S16x256
  shapeCasts_S16x256_S16x256x1 : S16x256.ShapeCasts S16x256x1
  broadcasts_S16x256x1_S16x256x64 : S16x256x1.Broadcasts S16x256x64
  reduces_S16x256x64_S16x64 : S16x256x64.Reduces [1] S16x64
  reduces_S16x64_S16 : S16x64.Reduces [1] S16
  shapeCasts_S16_S16x1 : S16.ShapeCasts S16x1
  broadcasts_S16x1_S16x64 : S16x1.Broadcasts S16x64
  shapeCasts_S64_S1x64 : S64.ShapeCasts S1x64
  broadcasts_S1x64_S16x64 : S1x64.Broadcasts S16x64
  shapeCasts_S16x64_S16x64x1 : S16x64.ShapeCasts S16x64x1
  broadcasts_S16x64x1_S16x64x256 : S16x64x1.Broadcasts S16x64x256
  reduces_S16x64x256_S16x256 : S16x64x256.Reduces [1] S16x256
  reduces_S16x256_S16 : S16x256.Reduces [1] S16
  broadcasts_S16x1_S16x256 : S16x1.Broadcasts S16x256
  shapeCasts_S256_S1x256 : S256.ShapeCasts S1x256
  broadcasts_S1x256_S16x256 : S1x256.Broadcasts S16x256
  inb_S49x256x256_S1x256x256_0_0_0 : ∀ a, (![0, 0, 0] : Fin 3 → Nat) a + S1x256x256.size a ≤ S49x256x256.size a
  h_S1x256x256 : 0 < S1x256x256.numel
  shapeCasts_S1x256x256_S256x256 : S1x256x256.ShapeCasts S256x256
  inb_S49x16x256_S1x16x256_1_0_0 : ∀ a, (![1, 0, 0] : Fin 3 → Nat) a + S1x16x256.size a ≤ S49x16x256.size a
  inb_S49x256x256_S1x256x256_1_0_0 : ∀ a, (![1, 0, 0] : Fin 3 → Nat) a + S1x256x256.size a ≤ S49x256x256.size a
  inb_S49x16x256_S1x16x256_2_0_0 : ∀ a, (![2, 0, 0] : Fin 3 → Nat) a + S1x16x256.size a ≤ S49x16x256.size a
  inb_S49x256x256_S1x256x256_2_0_0 : ∀ a, (![2, 0, 0] : Fin 3 → Nat) a + S1x256x256.size a ≤ S49x256x256.size a
  inb_S49x16x256_S1x16x256_3_0_0 : ∀ a, (![3, 0, 0] : Fin 3 → Nat) a + S1x16x256.size a ≤ S49x16x256.size a
  inb_S49x256x256_S1x256x256_3_0_0 : ∀ a, (![3, 0, 0] : Fin 3 → Nat) a + S1x256x256.size a ≤ S49x256x256.size a
  inb_S49x16x256_S1x16x256_4_0_0 : ∀ a, (![4, 0, 0] : Fin 3 → Nat) a + S1x16x256.size a ≤ S49x16x256.size a
  inb_S49x256x256_S1x256x256_4_0_0 : ∀ a, (![4, 0, 0] : Fin 3 → Nat) a + S1x256x256.size a ≤ S49x256x256.size a
  inb_S49x16x256_S1x16x256_5_0_0 : ∀ a, (![5, 0, 0] : Fin 3 → Nat) a + S1x16x256.size a ≤ S49x16x256.size a
  inb_S49x256x256_S1x256x256_5_0_0 : ∀ a, (![5, 0, 0] : Fin 3 → Nat) a + S1x256x256.size a ≤ S49x256x256.size a
  inb_S49x16x256_S1x16x256_6_0_0 : ∀ a, (![6, 0, 0] : Fin 3 → Nat) a + S1x16x256.size a ≤ S49x16x256.size a
  inb_S49x256x256_S1x256x256_6_0_0 : ∀ a, (![6, 0, 0] : Fin 3 → Nat) a + S1x256x256.size a ≤ S49x256x256.size a
  inb_S49x16x256_S1x16x256_7_0_0 : ∀ a, (![7, 0, 0] : Fin 3 → Nat) a + S1x16x256.size a ≤ S49x16x256.size a
  inb_S49x256x256_S1x256x256_7_0_0 : ∀ a, (![7, 0, 0] : Fin 3 → Nat) a + S1x256x256.size a ≤ S49x256x256.size a
  inb_S49x16x256_S1x16x256_8_0_0 : ∀ a, (![8, 0, 0] : Fin 3 → Nat) a + S1x16x256.size a ≤ S49x16x256.size a
  inb_S49x256x256_S1x256x256_8_0_0 : ∀ a, (![8, 0, 0] : Fin 3 → Nat) a + S1x256x256.size a ≤ S49x256x256.size a
  inb_S49x16x256_S1x16x256_9_0_0 : ∀ a, (![9, 0, 0] : Fin 3 → Nat) a + S1x16x256.size a ≤ S49x16x256.size a
  inb_S49x256x256_S1x256x256_9_0_0 : ∀ a, (![9, 0, 0] : Fin 3 → Nat) a + S1x256x256.size a ≤ S49x256x256.size a
  inb_S49x16x256_S1x16x256_10_0_0 : ∀ a, (![10, 0, 0] : Fin 3 → Nat) a + S1x16x256.size a ≤ S49x16x256.size a
  inb_S49x256x256_S1x256x256_10_0_0 : ∀ a, (![10, 0, 0] : Fin 3 → Nat) a + S1x256x256.size a ≤ S49x256x256.size a
  inb_S49x16x256_S1x16x256_11_0_0 : ∀ a, (![11, 0, 0] : Fin 3 → Nat) a + S1x16x256.size a ≤ S49x16x256.size a
  inb_S49x256x256_S1x256x256_11_0_0 : ∀ a, (![11, 0, 0] : Fin 3 → Nat) a + S1x256x256.size a ≤ S49x256x256.size a
  inb_S49x16x256_S1x16x256_12_0_0 : ∀ a, (![12, 0, 0] : Fin 3 → Nat) a + S1x16x256.size a ≤ S49x16x256.size a
  inb_S49x256x256_S1x256x256_12_0_0 : ∀ a, (![12, 0, 0] : Fin 3 → Nat) a + S1x256x256.size a ≤ S49x256x256.size a
  inb_S49x16x256_S1x16x256_13_0_0 : ∀ a, (![13, 0, 0] : Fin 3 → Nat) a + S1x16x256.size a ≤ S49x16x256.size a
  inb_S49x256x256_S1x256x256_13_0_0 : ∀ a, (![13, 0, 0] : Fin 3 → Nat) a + S1x256x256.size a ≤ S49x256x256.size a
  inb_S49x16x256_S1x16x256_14_0_0 : ∀ a, (![14, 0, 0] : Fin 3 → Nat) a + S1x16x256.size a ≤ S49x16x256.size a
  inb_S49x256x256_S1x256x256_14_0_0 : ∀ a, (![14, 0, 0] : Fin 3 → Nat) a + S1x256x256.size a ≤ S49x256x256.size a
  inb_S49x16x256_S1x16x256_15_0_0 : ∀ a, (![15, 0, 0] : Fin 3 → Nat) a + S1x16x256.size a ≤ S49x16x256.size a
  inb_S49x256x256_S1x256x256_15_0_0 : ∀ a, (![15, 0, 0] : Fin 3 → Nat) a + S1x256x256.size a ≤ S49x256x256.size a
  inb_S49x16x256_S1x16x256_16_0_0 : ∀ a, (![16, 0, 0] : Fin 3 → Nat) a + S1x16x256.size a ≤ S49x16x256.size a
  inb_S49x256x256_S1x256x256_16_0_0 : ∀ a, (![16, 0, 0] : Fin 3 → Nat) a + S1x256x256.size a ≤ S49x256x256.size a
  inb_S49x16x256_S1x16x256_17_0_0 : ∀ a, (![17, 0, 0] : Fin 3 → Nat) a + S1x16x256.size a ≤ S49x16x256.size a
  inb_S49x256x256_S1x256x256_17_0_0 : ∀ a, (![17, 0, 0] : Fin 3 → Nat) a + S1x256x256.size a ≤ S49x256x256.size a
  inb_S49x16x256_S1x16x256_18_0_0 : ∀ a, (![18, 0, 0] : Fin 3 → Nat) a + S1x16x256.size a ≤ S49x16x256.size a
  inb_S49x256x256_S1x256x256_18_0_0 : ∀ a, (![18, 0, 0] : Fin 3 → Nat) a + S1x256x256.size a ≤ S49x256x256.size a
  inb_S49x16x256_S1x16x256_19_0_0 : ∀ a, (![19, 0, 0] : Fin 3 → Nat) a + S1x16x256.size a ≤ S49x16x256.size a
  inb_S49x256x256_S1x256x256_19_0_0 : ∀ a, (![19, 0, 0] : Fin 3 → Nat) a + S1x256x256.size a ≤ S49x256x256.size a
  inb_S49x16x256_S1x16x256_20_0_0 : ∀ a, (![20, 0, 0] : Fin 3 → Nat) a + S1x16x256.size a ≤ S49x16x256.size a
  inb_S49x256x256_S1x256x256_20_0_0 : ∀ a, (![20, 0, 0] : Fin 3 → Nat) a + S1x256x256.size a ≤ S49x256x256.size a
  inb_S49x16x256_S1x16x256_21_0_0 : ∀ a, (![21, 0, 0] : Fin 3 → Nat) a + S1x16x256.size a ≤ S49x16x256.size a
  inb_S49x256x256_S1x256x256_21_0_0 : ∀ a, (![21, 0, 0] : Fin 3 → Nat) a + S1x256x256.size a ≤ S49x256x256.size a
  inb_S49x16x256_S1x16x256_22_0_0 : ∀ a, (![22, 0, 0] : Fin 3 → Nat) a + S1x16x256.size a ≤ S49x16x256.size a
  inb_S49x256x256_S1x256x256_22_0_0 : ∀ a, (![22, 0, 0] : Fin 3 → Nat) a + S1x256x256.size a ≤ S49x256x256.size a
  inb_S49x16x256_S1x16x256_23_0_0 : ∀ a, (![23, 0, 0] : Fin 3 → Nat) a + S1x16x256.size a ≤ S49x16x256.size a
  inb_S49x256x256_S1x256x256_23_0_0 : ∀ a, (![23, 0, 0] : Fin 3 → Nat) a + S1x256x256.size a ≤ S49x256x256.size a
  inb_S49x16x256_S1x16x256_24_0_0 : ∀ a, (![24, 0, 0] : Fin 3 → Nat) a + S1x16x256.size a ≤ S49x16x256.size a
  inb_S49x256x256_S1x256x256_24_0_0 : ∀ a, (![24, 0, 0] : Fin 3 → Nat) a + S1x256x256.size a ≤ S49x256x256.size a
  inb_S49x16x256_S1x16x256_25_0_0 : ∀ a, (![25, 0, 0] : Fin 3 → Nat) a + S1x16x256.size a ≤ S49x16x256.size a
  inb_S49x256x256_S1x256x256_25_0_0 : ∀ a, (![25, 0, 0] : Fin 3 → Nat) a + S1x256x256.size a ≤ S49x256x256.size a
  inb_S49x16x256_S1x16x256_26_0_0 : ∀ a, (![26, 0, 0] : Fin 3 → Nat) a + S1x16x256.size a ≤ S49x16x256.size a
  inb_S49x256x256_S1x256x256_26_0_0 : ∀ a, (![26, 0, 0] : Fin 3 → Nat) a + S1x256x256.size a ≤ S49x256x256.size a
  inb_S49x16x256_S1x16x256_27_0_0 : ∀ a, (![27, 0, 0] : Fin 3 → Nat) a + S1x16x256.size a ≤ S49x16x256.size a
  inb_S49x256x256_S1x256x256_27_0_0 : ∀ a, (![27, 0, 0] : Fin 3 → Nat) a + S1x256x256.size a ≤ S49x256x256.size a
  inb_S49x16x256_S1x16x256_28_0_0 : ∀ a, (![28, 0, 0] : Fin 3 → Nat) a + S1x16x256.size a ≤ S49x16x256.size a
  inb_S49x256x256_S1x256x256_28_0_0 : ∀ a, (![28, 0, 0] : Fin 3 → Nat) a + S1x256x256.size a ≤ S49x256x256.size a
  inb_S49x16x256_S1x16x256_29_0_0 : ∀ a, (![29, 0, 0] : Fin 3 → Nat) a + S1x16x256.size a ≤ S49x16x256.size a
  inb_S49x256x256_S1x256x256_29_0_0 : ∀ a, (![29, 0, 0] : Fin 3 → Nat) a + S1x256x256.size a ≤ S49x256x256.size a
  inb_S49x16x256_S1x16x256_30_0_0 : ∀ a, (![30, 0, 0] : Fin 3 → Nat) a + S1x16x256.size a ≤ S49x16x256.size a
  inb_S49x256x256_S1x256x256_30_0_0 : ∀ a, (![30, 0, 0] : Fin 3 → Nat) a + S1x256x256.size a ≤ S49x256x256.size a
  inb_S49x16x256_S1x16x256_31_0_0 : ∀ a, (![31, 0, 0] : Fin 3 → Nat) a + S1x16x256.size a ≤ S49x16x256.size a
  inb_S49x256x256_S1x256x256_31_0_0 : ∀ a, (![31, 0, 0] : Fin 3 → Nat) a + S1x256x256.size a ≤ S49x256x256.size a
  inb_S49x16x256_S1x16x256_32_0_0 : ∀ a, (![32, 0, 0] : Fin 3 → Nat) a + S1x16x256.size a ≤ S49x16x256.size a
  inb_S49x256x256_S1x256x256_32_0_0 : ∀ a, (![32, 0, 0] : Fin 3 → Nat) a + S1x256x256.size a ≤ S49x256x256.size a
  inb_S49x16x256_S1x16x256_33_0_0 : ∀ a, (![33, 0, 0] : Fin 3 → Nat) a + S1x16x256.size a ≤ S49x16x256.size a
  inb_S49x256x256_S1x256x256_33_0_0 : ∀ a, (![33, 0, 0] : Fin 3 → Nat) a + S1x256x256.size a ≤ S49x256x256.size a
  inb_S49x16x256_S1x16x256_34_0_0 : ∀ a, (![34, 0, 0] : Fin 3 → Nat) a + S1x16x256.size a ≤ S49x16x256.size a
  inb_S49x256x256_S1x256x256_34_0_0 : ∀ a, (![34, 0, 0] : Fin 3 → Nat) a + S1x256x256.size a ≤ S49x256x256.size a
  inb_S49x16x256_S1x16x256_35_0_0 : ∀ a, (![35, 0, 0] : Fin 3 → Nat) a + S1x16x256.size a ≤ S49x16x256.size a
  inb_S49x256x256_S1x256x256_35_0_0 : ∀ a, (![35, 0, 0] : Fin 3 → Nat) a + S1x256x256.size a ≤ S49x256x256.size a
  inb_S49x16x256_S1x16x256_36_0_0 : ∀ a, (![36, 0, 0] : Fin 3 → Nat) a + S1x16x256.size a ≤ S49x16x256.size a
  inb_S49x256x256_S1x256x256_36_0_0 : ∀ a, (![36, 0, 0] : Fin 3 → Nat) a + S1x256x256.size a ≤ S49x256x256.size a
  inb_S49x16x256_S1x16x256_37_0_0 : ∀ a, (![37, 0, 0] : Fin 3 → Nat) a + S1x16x256.size a ≤ S49x16x256.size a
  inb_S49x256x256_S1x256x256_37_0_0 : ∀ a, (![37, 0, 0] : Fin 3 → Nat) a + S1x256x256.size a ≤ S49x256x256.size a
  inb_S49x16x256_S1x16x256_38_0_0 : ∀ a, (![38, 0, 0] : Fin 3 → Nat) a + S1x16x256.size a ≤ S49x16x256.size a
  inb_S49x256x256_S1x256x256_38_0_0 : ∀ a, (![38, 0, 0] : Fin 3 → Nat) a + S1x256x256.size a ≤ S49x256x256.size a
  inb_S49x16x256_S1x16x256_39_0_0 : ∀ a, (![39, 0, 0] : Fin 3 → Nat) a + S1x16x256.size a ≤ S49x16x256.size a
  inb_S49x256x256_S1x256x256_39_0_0 : ∀ a, (![39, 0, 0] : Fin 3 → Nat) a + S1x256x256.size a ≤ S49x256x256.size a
  inb_S49x16x256_S1x16x256_40_0_0 : ∀ a, (![40, 0, 0] : Fin 3 → Nat) a + S1x16x256.size a ≤ S49x16x256.size a
  inb_S49x256x256_S1x256x256_40_0_0 : ∀ a, (![40, 0, 0] : Fin 3 → Nat) a + S1x256x256.size a ≤ S49x256x256.size a
  inb_S49x16x256_S1x16x256_41_0_0 : ∀ a, (![41, 0, 0] : Fin 3 → Nat) a + S1x16x256.size a ≤ S49x16x256.size a
  inb_S49x256x256_S1x256x256_41_0_0 : ∀ a, (![41, 0, 0] : Fin 3 → Nat) a + S1x256x256.size a ≤ S49x256x256.size a
  inb_S49x16x256_S1x16x256_42_0_0 : ∀ a, (![42, 0, 0] : Fin 3 → Nat) a + S1x16x256.size a ≤ S49x16x256.size a
  inb_S49x256x256_S1x256x256_42_0_0 : ∀ a, (![42, 0, 0] : Fin 3 → Nat) a + S1x256x256.size a ≤ S49x256x256.size a
  inb_S49x16x256_S1x16x256_43_0_0 : ∀ a, (![43, 0, 0] : Fin 3 → Nat) a + S1x16x256.size a ≤ S49x16x256.size a
  inb_S49x256x256_S1x256x256_43_0_0 : ∀ a, (![43, 0, 0] : Fin 3 → Nat) a + S1x256x256.size a ≤ S49x256x256.size a
  inb_S49x16x256_S1x16x256_44_0_0 : ∀ a, (![44, 0, 0] : Fin 3 → Nat) a + S1x16x256.size a ≤ S49x16x256.size a
  inb_S49x256x256_S1x256x256_44_0_0 : ∀ a, (![44, 0, 0] : Fin 3 → Nat) a + S1x256x256.size a ≤ S49x256x256.size a
  inb_S49x16x256_S1x16x256_45_0_0 : ∀ a, (![45, 0, 0] : Fin 3 → Nat) a + S1x16x256.size a ≤ S49x16x256.size a
  inb_S49x256x256_S1x256x256_45_0_0 : ∀ a, (![45, 0, 0] : Fin 3 → Nat) a + S1x256x256.size a ≤ S49x256x256.size a
  inb_S49x16x256_S1x16x256_46_0_0 : ∀ a, (![46, 0, 0] : Fin 3 → Nat) a + S1x16x256.size a ≤ S49x16x256.size a
  inb_S49x256x256_S1x256x256_46_0_0 : ∀ a, (![46, 0, 0] : Fin 3 → Nat) a + S1x256x256.size a ≤ S49x256x256.size a
  inb_S49x16x256_S1x16x256_47_0_0 : ∀ a, (![47, 0, 0] : Fin 3 → Nat) a + S1x16x256.size a ≤ S49x16x256.size a
  inb_S49x256x256_S1x256x256_47_0_0 : ∀ a, (![47, 0, 0] : Fin 3 → Nat) a + S1x256x256.size a ≤ S49x256x256.size a
  inb_S49x16x256_S1x16x256_48_0_0 : ∀ a, (![48, 0, 0] : Fin 3 → Nat) a + S1x16x256.size a ≤ S49x16x256.size a
  inb_S49x256x256_S1x256x256_48_0_0 : ∀ a, (![48, 0, 0] : Fin 3 → Nat) a + S1x256x256.size a ≤ S49x256x256.size a
  dot_S16x256_S256x32768_S16x32768_1_0_0_1_n_n_wf : DotDims.WF S16x256 S256x32768 S16x32768 [1] [0] [0] [1] [] []
  dot_S16x256_S256x256_S16x256_1_0_0_1_n_n_wf : DotDims.WF S16x256 S256x256 S16x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S2000x256.size a
  hwx0_0 : ∀ i : grid0.Coords, EltTy.bits .f32 = 32 ∨ (Rect.block (s := S2000x256) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S49x16x256.size a ≤ S49x2000x256.size a
  hwx0_1 : ∀ i : grid0.Coords, EltTy.bits .f32 = 32 ∨ (Rect.block (s := S49x2000x256) S49x16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32768.size a ≤ S256x32768.size a
  hwx0_2 : ∀ i : grid0.Coords, EltTy.bits .bf16 = 32 ∨ (Rect.block (s := S256x32768) S256x32768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32768.size a ≤ S32768.size a
  hwx0_3 : ∀ i : grid0.Coords, EltTy.bits .f32 = 32 ∨ (Rect.block (s := S32768) S32768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x256x256.size a ≤ S49x256x256.size a
  hwx0_4 : ∀ i : grid0.Coords, EltTy.bits .bf16 = 32 ∨ (Rect.block (s := S49x256x256) S49x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x256.size a ≤ S2000x256.size a
  hwx0_12 : ∀ i : grid0.Coords, EltTy.bits .f32 = 32 ∨ (Rect.block (s := S2000x256) S16x256.size (cc0_transform_12 i) (hinb0_12 i)).WholeWords (EltTy.packing .f32)

variable [Facts₀]

def dot_S16x256_S256x32768_S16x32768_1_0_0_1_n_n : DotDims S16x256 S256x32768 S16x32768 where
  lhsContracting := [1]
  rhsContracting := [0]
  lhsNonContracting := [0]
  rhsNonContracting := [1]
  lhsBatch := []
  rhsBatch := []
  wf := dot_S16x256_S256x32768_S16x32768_1_0_0_1_n_n_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S49x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x32768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S16x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1x2000x256 : Shape := ⟨3, ![1, 2000, 256]⟩
abbrev S49x2000x256 : Shape := ⟨3, ![49, 2000, 256]⟩
abbrev S256x32768 : Shape := ⟨2, ![256, 32768]⟩
abbrev S32768 : Shape := ⟨1, ![32768]⟩
abbrev S12544x256 : Shape := ⟨2, ![12544, 256]⟩
abbrev S256 : Shape := ⟨1, ![256]⟩
abbrev S64 : Shape := ⟨1, ![64]⟩
abbrev S2000x49x256 : Shape := ⟨3, ![2000, 49, 256]⟩
abbrev S2000x256 : Shape := ⟨2, ![2000, 256]⟩
abbrev S2000x32768 : Shape := ⟨2, ![2000, 32768]⟩
abbrev S1x32768 : Shape := ⟨2, ![1, 32768]⟩
abbrev S2000x16384 : Shape := ⟨2, ![2000, 16384]⟩
abbrev S2000x256x64 : Shape := ⟨3, ![2000, 256, 64]⟩
abbrev S2000x64x256 : Shape := ⟨3, ![2000, 64, 256]⟩
abbrev S2000x49x64 : Shape := ⟨3, ![2000, 49, 64]⟩
abbrev S_ : Shape := ⟨0, ![]⟩
abbrev S2000x49 : Shape := ⟨2, ![2000, 49]⟩
abbrev S2000x49x1 : Shape := ⟨3, ![2000, 49, 1]⟩
abbrev S1x1x64 : Shape := ⟨3, ![1, 1, 64]⟩
abbrev S1x1x256 : Shape := ⟨3, ![1, 1, 256]⟩
abbrev S2000x12544 : Shape := ⟨2, ![2000, 12544]⟩
abbrev S1x256 : Shape := ⟨2, ![1, 256]⟩
abbrev S2000 : Shape := ⟨1, ![2000]⟩
abbrev S2000x1 : Shape := ⟨2, ![2000, 1]⟩

abbrev nBuf : Space → Nat
  | .hbm => 125
  | .vmem => 0
  | .smem => 0
  | _ => 0

abbrev bufTy : (tb : Table) → Fin (tcTables nBuf tb) → BufTy
  | .hbm, ⟨0, _⟩ => ⟨S1x2000x256, .f32⟩
  | .hbm, ⟨1, _⟩ => ⟨S49x2000x256, .f32⟩
  | .hbm, ⟨2, _⟩ => ⟨S256x32768, .f32⟩
  | .hbm, ⟨3, _⟩ => ⟨S32768, .f32⟩
  | .hbm, ⟨4, _⟩ => ⟨S12544x256, .f32⟩
  | .hbm, ⟨5, _⟩ => ⟨S256, .f32⟩
  | .hbm, ⟨6, _⟩ => ⟨S64, .f32⟩
  | .hbm, ⟨7, _⟩ => ⟨S64, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S2000x49x256, .f32⟩
  | .hbm, ⟨13, _⟩ => ⟨S2000x256, .f32⟩
  | .hbm, ⟨14, _⟩ => ⟨S2000x32768, .f32⟩
  | .hbm, ⟨15, _⟩ => ⟨S1x32768, .f32⟩
  | .hbm, ⟨16, _⟩ => ⟨S2000x32768, .f32⟩
  | .hbm, ⟨17, _⟩ => ⟨S2000x32768, .f32⟩
  | .hbm, ⟨18, _⟩ => ⟨S2000x16384, .f32⟩
  | .hbm, ⟨19, _⟩ => ⟨S2000x256x64, .f32⟩
  | .hbm, ⟨20, _⟩ => ⟨S2000x16384, .f32⟩
  | .hbm, ⟨21, _⟩ => ⟨S2000x64x256, .f32⟩
  | .hbm, ⟨22, _⟩ => ⟨S2000x49x64, .f32⟩
  | .hbm, ⟨23, _⟩ => ⟨S_, .f32⟩
  | .hbm, ⟨24, _⟩ => ⟨S2000x49, .f32⟩
  | .hbm, ⟨25, _⟩ => ⟨S2000x49x1, .f32⟩
  | .hbm, ⟨26, _⟩ => ⟨S_, .f32⟩
  | .hbm, ⟨27, _⟩ => ⟨S2000x49x1, .f32⟩
  | .hbm, ⟨28, _⟩ => ⟨S2000x49x1, .f32⟩
  | .hbm, ⟨29, _⟩ => ⟨S2000x49x64, .f32⟩
  | .hbm, ⟨30, _⟩ => ⟨S2000x49x64, .f32⟩
  | .hbm, ⟨31, _⟩ => ⟨S2000x49x64, .f32⟩
  | .hbm, ⟨32, _⟩ => ⟨S_, .f32⟩
  | .hbm, ⟨33, _⟩ => ⟨S2000x49, .f32⟩
  | .hbm, ⟨34, _⟩ => ⟨S2000x49x1, .f32⟩
  | .hbm, ⟨35, _⟩ => ⟨S_, .f32⟩
  | .hbm, ⟨36, _⟩ => ⟨S2000x49x1, .f32⟩
  | .hbm, ⟨37, _⟩ => ⟨S2000x49x1, .f32⟩
  | .hbm, ⟨38, _⟩ => ⟨S2000x49x64, .f32⟩
  | .hbm, ⟨39, _⟩ => ⟨S2000x49x64, .f32⟩
  | .hbm, ⟨40, _⟩ => ⟨S_, .f32⟩
  | .hbm, ⟨41, _⟩ => ⟨S2000x49x1, .f32⟩
  | .hbm, ⟨42, _⟩ => ⟨S2000x49x1, .f32⟩
  | .hbm, ⟨43, _⟩ => ⟨S2000x49x1, .f32⟩
  | .hbm, ⟨44, _⟩ => ⟨S2000x49x64, .f32⟩
  | .hbm, ⟨45, _⟩ => ⟨S2000x49x64, .f32⟩
  | .hbm, ⟨46, _⟩ => ⟨S1x1x64, .f32⟩
  | .hbm, ⟨47, _⟩ => ⟨S2000x49x64, .f32⟩
  | .hbm, ⟨48, _⟩ => ⟨S2000x49x64, .f32⟩
  | .hbm, ⟨49, _⟩ => ⟨S1x1x64, .f32⟩
  | .hbm, ⟨50, _⟩ => ⟨S2000x49x64, .f32⟩
  | .hbm, ⟨51, _⟩ => ⟨S2000x49x64, .f32⟩
  | .hbm, ⟨52, _⟩ => ⟨S_, .f32⟩
  | .hbm, ⟨53, _⟩ => ⟨S2000x49x64, .f32⟩
  | .hbm, ⟨54, _⟩ => ⟨S2000x49x64, .f32⟩
  | .hbm, ⟨55, _⟩ => ⟨S2000x49x256, .f32⟩
  | .hbm, ⟨56, _⟩ => ⟨S_, .f32⟩
  | .hbm, ⟨57, _⟩ => ⟨S2000x49, .f32⟩
  | .hbm, ⟨58, _⟩ => ⟨S2000x49x1, .f32⟩
  | .hbm, ⟨59, _⟩ => ⟨S_, .f32⟩
  | .hbm, ⟨60, _⟩ => ⟨S2000x49x1, .f32⟩
  | .hbm, ⟨61, _⟩ => ⟨S2000x49x1, .f32⟩
  | .hbm, ⟨62, _⟩ => ⟨S2000x49x256, .f32⟩
  | .hbm, ⟨63, _⟩ => ⟨S2000x49x256, .f32⟩
  | .hbm, ⟨64, _⟩ => ⟨S2000x49x256, .f32⟩
  | .hbm, ⟨65, _⟩ => ⟨S_, .f32⟩
  | .hbm, ⟨66, _⟩ => ⟨S2000x49, .f32⟩
  | .hbm, ⟨67, _⟩ => ⟨S2000x49x1, .f32⟩
  | .hbm, ⟨68, _⟩ => ⟨S_, .f32⟩
  | .hbm, ⟨69, _⟩ => ⟨S2000x49x1, .f32⟩
  | .hbm, ⟨70, _⟩ => ⟨S2000x49x1, .f32⟩
  | .hbm, ⟨71, _⟩ => ⟨S2000x49x256, .f32⟩
  | .hbm, ⟨72, _⟩ => ⟨S2000x49x256, .f32⟩
  | .hbm, ⟨73, _⟩ => ⟨S_, .f32⟩
  | .hbm, ⟨74, _⟩ => ⟨S2000x49x1, .f32⟩
  | .hbm, ⟨75, _⟩ => ⟨S2000x49x1, .f32⟩
  | .hbm, ⟨76, _⟩ => ⟨S2000x49x1, .f32⟩
  | .hbm, ⟨77, _⟩ => ⟨S2000x49x256, .f32⟩
  | .hbm, ⟨78, _⟩ => ⟨S2000x49x256, .f32⟩
  | .hbm, ⟨79, _⟩ => ⟨S1x1x256, .f32⟩
  | .hbm, ⟨80, _⟩ => ⟨S2000x49x256, .f32⟩
  | .hbm, ⟨81, _⟩ => ⟨S2000x49x256, .f32⟩
  | .hbm, ⟨82, _⟩ => ⟨S1x1x256, .f32⟩
  | .hbm, ⟨83, _⟩ => ⟨S2000x49x256, .f32⟩
  | .hbm, ⟨84, _⟩ => ⟨S2000x49x256, .f32⟩
  | .hbm, ⟨85, _⟩ => ⟨S_, .f32⟩
  | .hbm, ⟨86, _⟩ => ⟨S2000x49x256, .f32⟩
  | .hbm, ⟨87, _⟩ => ⟨S2000x49x256, .f32⟩
  | .hbm, ⟨88, _⟩ => ⟨S2000x12544, .f32⟩
  | .hbm, ⟨89, _⟩ => ⟨S2000x256, .f32⟩
  | .hbm, ⟨90, _⟩ => ⟨S1x256, .f32⟩
  | .hbm, ⟨91, _⟩ => ⟨S2000x256, .f32⟩
  | .hbm, ⟨92, _⟩ => ⟨S2000x256, .f32⟩
  | .hbm, ⟨93, _⟩ => ⟨S_, .f32⟩
  | .hbm, ⟨94, _⟩ => ⟨S2000, .f32⟩
  | .hbm, ⟨95, _⟩ => ⟨S2000x1, .f32⟩
  | .hbm, ⟨96, _⟩ => ⟨S_, .f32⟩
  | .hbm, ⟨97, _⟩ => ⟨S2000x1, .f32⟩
  | .hbm, ⟨98, _⟩ => ⟨S2000x1, .f32⟩
  | .hbm, ⟨99, _⟩ => ⟨S2000x256, .f32⟩
  | .hbm, ⟨100, _⟩ => ⟨S2000x256, .f32⟩
  | .hbm, ⟨101, _⟩ => ⟨S2000x256, .f32⟩
  | .hbm, ⟨102, _⟩ => ⟨S_, .f32⟩
  | .hbm, ⟨103, _⟩ => ⟨S2000, .f32⟩
  | .hbm, ⟨104, _⟩ => ⟨S2000x1, .f32⟩
  | .hbm, ⟨105, _⟩ => ⟨S_, .f32⟩
  | .hbm, ⟨106, _⟩ => ⟨S2000x1, .f32⟩
  | .hbm, ⟨107, _⟩ => ⟨S2000x1, .f32⟩
  | .hbm, ⟨108, _⟩ => ⟨S2000x256, .f32⟩
  | .hbm, ⟨109, _⟩ => ⟨S2000x256, .f32⟩
  | .hbm, ⟨110, _⟩ => ⟨S_, .f32⟩
  | .hbm, ⟨111, _⟩ => ⟨S2000x1, .f32⟩
  | .hbm, ⟨112, _⟩ => ⟨S2000x1, .f32⟩
  | .hbm, ⟨113, _⟩ => ⟨S2000x1, .f32⟩
  | .hbm, ⟨114, _⟩ => ⟨S2000x256, .f32⟩
  | .hbm, ⟨115, _⟩ => ⟨S2000x256, .f32⟩
  | .hbm, ⟨116, _⟩ => ⟨S1x256, .f32⟩
  | .hbm, ⟨117, _⟩ => ⟨S2000x256, .f32⟩
  | .hbm, ⟨118, _⟩ => ⟨S2000x256, .f32⟩
  | .hbm, ⟨119, _⟩ => ⟨S1x256, .f32⟩
  | .hbm, ⟨120, _⟩ => ⟨S2000x256, .f32⟩
  | .hbm, ⟨121, _⟩ => ⟨S2000x256, .f32⟩
  | .hbm, ⟨122, _⟩ => ⟨S_, .f32⟩
  | .hbm, ⟨123, _⟩ => ⟨S2000x256, .f32⟩
  | .hbm, ⟨124, _⟩ => ⟨S2000x256, .f32⟩
  | _, _ => ⟨S1x2000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_cst : Ref sig .tc := ⟨.hbm, 52, rfl⟩
abbrev main_call0_v0 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_11 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_cst : Ref sig .tc := ⟨.hbm, 122, rfl⟩
abbrev main_call2_v0 : Ref sig .tc := ⟨.hbm, 123, rfl⟩
abbrev main_v91 : Ref sig .tc := ⟨.hbm, 124, rfl⟩

abbrev nD : Nat := 1
abbrev τ : Topo := Topo.v7x

variable {F : FTy → Type} [FloatOps F]

class Facts₀ : Prop where
  transposes_S49x2000x256_S2000x49x256_1_0_2 : S49x2000x256.Transposes [1, 0, 2] S2000x49x256
  shapeCasts_S1x2000x256_S2000x256 : S1x2000x256.ShapeCasts S2000x256
  bcast_S32768_S1x32768_1 : S32768.BroadcastsInDim S1x32768 (![1] : Fin 1 → Fin S1x32768.rank)
  bcast_S1x32768_S2000x32768_0_1 : S1x32768.BroadcastsInDim S2000x32768 (![0, 1] : Fin 2 → Fin S2000x32768.rank)
  slices_S2000x32768_S2000x16384_0_0 : S2000x32768.Slices ![0, 0] S2000x16384
  shapeCasts_S2000x16384_S2000x256x64 : S2000x16384.ShapeCasts S2000x256x64
  slices_S2000x32768_S2000x16384_0_16384 : S2000x32768.Slices ![0, 16384] S2000x16384
  shapeCasts_S2000x16384_S2000x64x256 : S2000x16384.ShapeCasts S2000x64x256
  reducesTo_S2000x49x64_S2000x49_d2 : S2000x49x64.ReducesTo [2] S2000x49
  h_S_ : 0 < S_.numel
  bcast_S2000x49_S2000x49x1_0_1 : S2000x49.BroadcastsInDim S2000x49x1 (![0, 1] : Fin 2 → Fin S2000x49x1.rank)
  bcast_S_S2000x49x1 : S_.BroadcastsInDim S2000x49x1 (![] : Fin 0 → Fin S2000x49x1.rank)
  bcast_S2000x49x1_S2000x49x64_0_1_2 : S2000x49x1.BroadcastsInDim S2000x49x64 (![0, 1, 2] : Fin 3 → Fin S2000x49x64.rank)
  bcast_S64_S1x1x64_2 : S64.BroadcastsInDim S1x1x64 (![2] : Fin 1 → Fin S1x1x64.rank)
  bcast_S1x1x64_S2000x49x64_0_1_2 : S1x1x64.BroadcastsInDim S2000x49x64 (![0, 1, 2] : Fin 3 → Fin S2000x49x64.rank)
  bcast_S_S2000x49x64 : S_.BroadcastsInDim S2000x49x64 (![] : Fin 0 → Fin S2000x49x64.rank)
  reducesTo_S2000x49x256_S2000x49_d2 : S2000x49x256.ReducesTo [2] S2000x49
  bcast_S2000x49x1_S2000x49x256_0_1_2 : S2000x49x1.BroadcastsInDim S2000x49x256 (![0, 1, 2] : Fin 3 → Fin S2000x49x256.rank)
  bcast_S256_S1x1x256_2 : S256.BroadcastsInDim S1x1x256 (![2] : Fin 1 → Fin S1x1x256.rank)
  bcast_S1x1x256_S2000x49x256_0_1_2 : S1x1x256.BroadcastsInDim S2000x49x256 (![0, 1, 2] : Fin 3 → Fin S2000x49x256.rank)
  bcast_S_S2000x49x256 : S_.BroadcastsInDim S2000x49x256 (![] : Fin 0 → Fin S2000x49x256.rank)
  shapeCasts_S2000x49x256_S2000x12544 : S2000x49x256.ShapeCasts S2000x12544
  bcast_S256_S1x256_1 : S256.BroadcastsInDim S1x256 (![1] : Fin 1 → Fin S1x256.rank)
  bcast_S1x256_S2000x256_0_1 : S1x256.BroadcastsInDim S2000x256 (![0, 1] : Fin 2 → Fin S2000x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  bcast_S_S2000x256 : S_.BroadcastsInDim S2000x256 (![] : Fin 0 → Fin S2000x256.rank)
  dot_S2000x256_S256x32768_S2000x32768_1_0_0_1_n_n_wf : DotDims.WF S2000x256 S256x32768 S2000x32768 [1] [0] [0] [1] [] []
  dot_S2000x49x256_S2000x256x64_S2000x49x64_2_1_1_2_0_0_wf : DotDims.WF S2000x49x256 S2000x256x64 S2000x49x64 [2] [1] [1] [2] [0] [0]
  dot_S2000x49x64_S2000x64x256_S2000x49x256_2_1_1_2_0_0_wf : DotDims.WF S2000x49x64 S2000x64x256 S2000x49x256 [2] [1] [1] [2] [0] [0]
  dot_S2000x12544_S12544x256_S2000x256_1_0_0_1_n_n_wf : DotDims.WF S2000x12544 S12544x256 S2000x256 [1] [0] [0] [1] [] []

variable [Facts₀]

def dot_S2000x256_S256x32768_S2000x32768_1_0_0_1_n_n : DotDims S2000x256 S256x32768 S2000x32768 where
  lhsContracting := [1]
  rhsContracting := [0]
  lhsNonContracting := [0]
  rhsNonContracting := [1]
  lhsBatch := []
  rhsBatch := []
  wf := dot_S2000x256_S256x32768_S2000x32768_1_0_0_1_n_n_wf
def dot_S2000x49x256_S2000x256x64_S2000x49x64_2_1_1_2_0_0 : DotDims S2000x49x256 S2000x256x64 S2000x49x64 where
  lhsContracting := [2]
  rhsContracting := [1]
  lhsNonContracting := [1]
  rhsNonContracting := [2]
  lhsBatch := [0]
  rhsBatch := [0]
  wf := dot_S2000x49x256_S2000x256x64_S2000x49x64_2_1_1_2_0_0_wf
def dot_S2000x49x64_S2000x64x256_S2000x49x256_2_1_1_2_0_0 : DotDims S2000x49x64 S2000x64x256 S2000x49x256 where
  lhsContracting := [2]
  rhsContracting := [1]
  lhsNonContracting := [1]
  rhsNonContracting := [2]
  lhsBatch := [0]
  rhsBatch := [0]
  wf := dot_S2000x49x64_S2000x64x256_S2000x49x256_2_1_1_2_0_0_wf
def dot_S2000x12544_S12544x256_S2000x256_1_0_0_1_n_n : DotDims S2000x12544 S12544x256 S2000x256 where
  lhsContracting := [1]
  rhsContracting := [0]
  lhsNonContracting := [0]
  rhsNonContracting := [1]
  lhsBatch := []
  rhsBatch := []
  wf := dot_S2000x12544_S12544x256_S2000x256_1_0_0_1_n_n_wf

class Facts : Prop extends Facts₀ where

variable [Facts]
-- ==== Proof.Folded.lean ====
/-
  The kernel body, folded. One grid point of the kernel handles 16 instances. Its body first forms the
  per-instance dynamic parameters (a matmul of the instance features with the dynamic weight, plus bias), splits them
  into two per-instance matrices `p1` (256 x 64) and `p2` (64 x 256), and then runs the SAME sequence of operations
  49 times, once per pooled position r: contract the position's feature row with `p1`, normalise the 64 lanes and
  clamp at zero, contract with `p2`, normalise the 256 lanes and clamp at zero, and add that row times the r-th
  256 x 256 slab of the output weight to a running accumulator. A bias, a last normalisation over 256 lanes and a clamp
  finish it. This module names that repeated sequence once (`step`), and the whole body as the 49-fold iteration of it
  between a prologue and an epilogue (`body`); every definition is generic in the float instance.
-/
import proofs.«169738_j79053168050560_1_alg».proof.Proof.Gen.KernelIdeal

noncomputable section

namespace Cert.KernelIdeal.Folded

open Idealize.ShloMosaic Idealize.SL.Sem
open Cert.KernelIdeal Cert.KernelIdeal.Facts₀ Cert.KernelIdeal.Facts

variable {F : FTy → Type} [FloatOps F]

/-- The dynamic parameters of the 16 instances of a block: features (as bf16) times the dynamic weight, plus bias. -/
def dyn (x : Vec F S16x256 .f32) (w : Vec F S256x32768 .bf16) (b : Vec F S32768 .f32) : FVec F S16x32768 .f32 :=
  have v1 : FVec F S16x256 .f32 := shapeCast S16x256 x shapeCasts_S16x256_S16x256
  have v2 : FVec F S16x256 .bf16 := truncf .bf16 v1 bitsLt_bf16_f32
  have v4 : FVec F S256x32768 .bf16 := shapeCast S256x32768 w shapeCasts_S256x32768_S256x32768
  have cst : FVec F S16x32768 .f32 := constant S16x32768 .f32 0x00000000#32
  have v5 : FVec F S16x32768 .f32 := matmul dot_S16x256_S256x32768_S16x32768_1_0_0_1_n_n none v2 v4 cst
  have v7 : FVec F S1x32768 .f32 := shapeCast S1x32768 b shapeCasts_S32768_S1x32768
  have v8 : FVec F S16x32768 .f32 := broadcastTo S16x32768 v7 broadcasts_S1x32768_S16x32768
  addf v5 v8

/-- The first half of the parameters, as 16 matrices of 256 x 64. -/
def dyn1 (x : Vec F S16x256 .f32) (w : Vec F S256x32768 .bf16) (b : Vec F S32768 .f32) : FVec F S16x256x64 .f32 :=
  have v10 : FVec F S16x16384 .f32 := extractStridedSlice S16x16384 ![0, 0] (dyn x w b) slices_S16x32768_o0_0_S16x16384
  shapeCast S16x256x64 v10 shapeCasts_S16x16384_S16x256x64

/-- The second half of the parameters, as 16 matrices of 64 x 256. -/
def dyn2 (x : Vec F S16x256 .f32) (w : Vec F S256x32768 .bf16) (b : Vec F S32768 .f32) : FVec F S16x64x256 .f32 :=
  have v12 : FVec F S16x16384 .f32 := extractStridedSlice S16x16384 ![0, 16384] (dyn x w b) slices_S16x32768_o0_16384_S16x16384
  shapeCast S16x64x256 v12 shapeCasts_S16x16384_S16x64x256

/-- Per instance, the feature row of one pooled position times the instance's 256 x 64 matrix. -/
def contract1 (p1 : FVec F S16x256x64 .f32) (f : Vec F S1x16x256 .f32) : FVec F S16x64 .f32 :=
  have v22 : FVec F S16x256 .f32 := shapeCast S16x256 f shapeCasts_S1x16x256_S16x256
  have v23 : FVec F S16x256x1 .f32 := shapeCast S16x256x1 v22 shapeCasts_S16x256_S16x256x1
  have v24 : FVec F S16x256x64 .f32 := broadcastTo S16x256x64 v23 broadcasts_S16x256x1_S16x256x64
  have v25 : FVec F S16x256x64 .f32 := mulf v24 p1
  multiReduction .add [1] S16x64 v25 0x00000000#32 reduces_S16x256x64_S16x64 (.inl rfl) rfl

/-- Normalisation of each row of 64 lanes (mean and variance as lane sums over 64, reciprocal square root of the
    variance plus the epsilon literal), then scale, shift and clamp at zero. -/
def norm64 (g b : Vec F S64 .f32) (v26 : FVec F S16x64 .f32) : FVec F S16x64 .f32 :=
  have v27 : FVec F S16 .f32 := multiReduction .add [1] S16 v26 0x00000000#32 reduces_S16x64_S16 (.inl rfl) rfl
  have v28 : FVec F S16x1 .f32 := shapeCast S16x1 v27 shapeCasts_S16_S16x1
  have cst_16 : F .f32 := Scalar.ofBits .f32 0x42800000#32
  have v29 : FVec F S16x1 .f32 := broadcast S16x1 cst_16
  have v30 : FVec F S16x1 .f32 := divf v28 v29
  have v31 : FVec F S16x64 .f32 := broadcastTo S16x64 v30 broadcasts_S16x1_S16x64
  have v32 : FVec F S16x64 .f32 := subf v26 v31
  have v33 : FVec F S16x64 .f32 := mulf v32 v32
  have v34 : FVec F S16 .f32 := multiReduction .add [1] S16 v33 0x00000000#32 reduces_S16x64_S16 (.inl rfl) rfl
  have v35 : FVec F S16x1 .f32 := shapeCast S16x1 v34 shapeCasts_S16_S16x1
  have cst_18 : F .f32 := Scalar.ofBits .f32 0x42800000#32
  have v36 : FVec F S16x1 .f32 := broadcast S16x1 cst_18
  have v37 : FVec F S16x1 .f32 := divf v35 v36
  have v38 : FVec F S16x64 .f32 := broadcastTo S16x64 v30 broadcasts_S16x1_S16x64
  have v39 : FVec F S16x64 .f32 := subf v26 v38
  have cst_19 : F .f32 := Scalar.ofBits .f32 0x3727C5AC#32
  have v40 : FVec F S16x1 .f32 := broadcast S16x1 cst_19
  have v41 : FVec F S16x1 .f32 := addf v37 v40
  have v42 : FVec F S16x1 .f32 := rsqrt v41
  have v43 : FVec F S16x64 .f32 := broadcastTo S16x64 v42 broadcasts_S16x1_S16x64
  have v44 : FVec F S16x64 .f32 := mulf v39 v43
  have v45 : FVec F S1x64 .f32 := shapeCast S1x64 g shapeCasts_S64_S1x64
  have v46 : FVec F S16x64 .f32 := broadcastTo S16x64 v45 broadcasts_S1x64_S16x64
  have v47 : FVec F S16x64 .f32 := mulf v44 v46
  have v48 : FVec F S1x64 .f32 := shapeCast S1x64 b shapeCasts_S64_S1x64
  have v49 : FVec F S16x64 .f32 := broadcastTo S16x64 v48 broadcasts_S1x64_S16x64
  have v50 : FVec F S16x64 .f32 := addf v47 v49
  have cst_20 : F .f32 := Scalar.ofBits .f32 0x00000000#32
  have v51 : FVec F S16x64 .f32 := broadcast S16x64 cst_20
  maximumf v50 v51

/-- Per instance, a row of 64 lanes times the instance's 64 x 256 matrix. -/
def contract2 (p2 : FVec F S16x64x256 .f32) (v52 : FVec F S16x64 .f32) : FVec F S16x256 .f32 :=
  have v53 : FVec F S16x64x1 .f32 := shapeCast S16x64x1 v52 shapeCasts_S16x64_S16x64x1
  have v54 : FVec F S16x64x256 .f32 := broadcastTo S16x64x256 v53 broadcasts_S16x64x1_S16x64x256
  have v55 : FVec F S16x64x256 .f32 := mulf v54 p2
  multiReduction .add [1] S16x256 v55 0x00000000#32 reduces_S16x64x256_S16x256 (.inl rfl) rfl

/-- Normalisation of each row of 256 lanes, then scale, shift and clamp at zero. -/
def norm256 (g b : Vec F S256 .f32) (v56 : FVec F S16x256 .f32) : FVec F S16x256 .f32 :=
  have v57 : FVec F S16 .f32 := multiReduction .add [1] S16 v56 0x00000000#32 reduces_S16x256_S16 (.inl rfl) rfl
  have v58 : FVec F S16x1 .f32 := shapeCast S16x1 v57 shapeCasts_S16_S16x1
  have cst_23 : F .f32 := Scalar.ofBits .f32 0x43800000#32
  have v59 : FVec F S16x1 .f32 := broadcast S16x1 cst_23
  have v60 : FVec F S16x1 .f32 := divf v58 v59
  have v61 : FVec F S16x256 .f32 := broadcastTo S16x256 v60 broadcasts_S16x1_S16x256
  have v62 : FVec F S16x256 .f32 := subf v56 v61
  have v63 : FVec F S16x256 .f32 := mulf v62 v62
  have v64 : FVec F S16 .f32 := multiReduction .add [1] S16 v63 0x00000000#32 reduces_S16x256_S16 (.inl rfl) rfl
  have v65 : FVec F S16x1 .f32 := shapeCast S16x1 v64 shapeCasts_S16_S16x1
  have cst_25 : F .f32 := Scalar.ofBits .f32 0x43800000#32
  have v66 : FVec F S16x1 .f32 := broadcast S16x1 cst_25
  have v67 : FVec F S16x1 .f32 := divf v65 v66
  have v68 : FVec F S16x256 .f32 := broadcastTo S16x256 v60 broadcasts_S16x1_S16x256
  have v69 : FVec F S16x256 .f32 := subf v56 v68
  have cst_26 : F .f32 := Scalar.ofBits .f32 0x3727C5AC#32
  have v70 : FVec F S16x1 .f32 := broadcast S16x1 cst_26
  have v71 : FVec F S16x1 .f32 := addf v67 v70
  have v72 : FVec F S16x1 .f32 := rsqrt v71
  have v73 : FVec F S16x256 .f32 := broadcastTo S16x256 v72 broadcasts_S16x1_S16x256
  have v74 : FVec F S16x256 .f32 := mulf v69 v73
  have v75 : FVec F S1x256 .f32 := shapeCast S1x256 g shapeCasts_S256_S1x256
  have v76 : FVec F S16x256 .f32 := broadcastTo S16x256 v75 broadcasts_S1x256_S16x256
  have v77 : FVec F S16x256 .f32 := mulf v74 v76
  have v78 : FVec F S1x256 .f32 := shapeCast S1x256 b shapeCasts_S256_S1x256
  have v79 : FVec F S16x256 .f32 := broadcastTo S16x256 v78 broadcasts_S1x256_S16x256
  have v80 : FVec F S16x256 .f32 := addf v77 v79
  have cst_27 : F .f32 := Scalar.ofBits .f32 0x00000000#32
  have v81 : FVec F S16x256 .f32 := broadcast S16x256 cst_27
  maximumf v80 v81

/-- The accumulator plus the row (as bf16) times one 256 x 256 slab of the output weight. -/
def project (acc : FVec F S16x256 .f32) (v82 : FVec F S16x256 .f32) (w : Vec F S1x256x256 .bf16) : FVec F S16x256 .f32 :=
  have v84 : FVec F S256x256 .bf16 := shapeCast S256x256 w shapeCasts_S1x256x256_S256x256
  have v85 : FVec F S16x256 .bf16 := truncf .bf16 v82 bitsLt_bf16_f32
  have cst_31 : FVec F S16x256 .f32 := constant S16x256 .f32 0x00000000#32
  have v86 : FVec F S16x256 .f32 := matmul dot_S16x256_S256x256_S16x256_1_0_0_1_n_n none v85 v84 cst_31
  addf acc v86

/-- What one pooled position contributes to the output row before the accumulation. -/
def hidden (p1 : FVec F S16x256x64 .f32) (p2 : FVec F S16x64x256 .f32) (g1 b1 : Vec F S64 .f32) (g2 b2 : Vec F S256 .f32)
    (f : Vec F S1x16x256 .f32) : FVec F S16x256 .f32 :=
  norm256 g2 b2 (contract2 p2 (norm64 g1 b1 (contract1 p1 f)))

/-- One pooled position: the repeated sequence of the body. -/
def step (p1 : FVec F S16x256x64 .f32) (p2 : FVec F S16x64x256 .f32) (g1 b1 : Vec F S64 .f32) (g2 b2 : Vec F S256 .f32)
    (acc : FVec F S16x256 .f32) (f : Vec F S1x16x256 .f32) (w : Vec F S1x256x256 .bf16) : FVec F S16x256 .f32 :=
  project acc (hidden p1 p2 g1 b1 g2 b2 f) w

/-- The accumulator the body starts from. -/
def acc0 : FVec F S16x256 .f32 :=
  have cst_10 : F .f32 := Scalar.ofBits .f32 0x00000000#32
  broadcast S16x256 cst_10

/-- After the last position: add the output bias, normalise the 256 lanes, scale, shift and clamp. -/
def finish (bout g3 b3 : Vec F S256 .f32) (acc : FVec F S16x256 .f32) : FVec F S16x256 .f32 :=
  have v3305 : FVec F S1x256 .f32 := shapeCast S1x256 bout shapeCasts_S256_S1x256
  have v3306 : FVec F S16x256 .f32 := broadcastTo S16x256 v3305 broadcasts_S1x256_S16x256
  have v3307 : FVec F S16x256 .f32 := addf acc v3306
  norm256 g3 b3 v3307

end Cert.KernelIdeal.Folded

end
-- ==== Proof.FoldedEq.lean ====
/-
  The generated description of what the body leaves in the output block is a tree of 216 named payloads, cut at
  positions that do not follow the body's 49 repetitions. Unfolded, that tree is the prologue, then the same
  sequence of operations applied 49 times to the r-th pooled slab and the r-th slab of the output weight, then the
  epilogue. This module states the body in that folded form (`body`) and shows the generated term is it: both sides
  unfold to the same operations on the same loads.
-/
import proofs.«169738_j79053168050560_1_alg».proof.Proof.Gen.KernelIdeal.Frame
import proofs.«169738_j79053168050560_1_alg».proof.Proof.Folded

set_option maxRecDepth 65536

noncomputable section

namespace Cert.KernelIdeal.Folded

open Idealize.ShloMosaic Idealize.SL.Sem
open Cert.KernelIdeal Cert.KernelIdeal.Gen Cert.KernelIdeal.Facts₀ Cert.KernelIdeal.Facts

variable {F : FTy → Type} [FloatOps F]

theorem roi_inb (r : ℕ) : ∀ a, (![r % 49, 0, 0] : Fin 3 → Nat) a + S1x16x256.size a ≤ S49x16x256.size a := fun a => by
  match a with
  | ⟨0, _⟩ => show r % 49 + 1 ≤ 49; have := Nat.mod_lt r (by decide : 49 > 0); omega
  | ⟨1, _⟩ => show 0 + 16 ≤ 16; omega
  | ⟨2, _⟩ => show 0 + 256 ≤ 256; omega

theorem wo_inb (r : ℕ) : ∀ a, (![r % 49, 0, 0] : Fin 3 → Nat) a + S1x256x256.size a ≤ S49x256x256.size a := fun a => by
  match a with
  | ⟨0, _⟩ => show r % 49 + 1 ≤ 49; have := Nat.mod_lt r (by decide : 49 > 0); omega
  | ⟨1, _⟩ => show 0 + 256 ≤ 256; omega
  | ⟨2, _⟩ => show 0 + 256 ≤ 256; omega

/-- The slab of pooled position `r` (taken modulo 49) in the staged block of pooled features. -/
abbrev roiRect (r : ℕ) : Rect S49x16x256 := Rect.unit (s := S49x16x256) ![r % 49, 0, 0] S1x16x256.size (roi_inb r)
/-- The slab of position `r` (taken modulo 49) in the staged output weight. -/
abbrev woRect (r : ℕ) : Rect S49x256x256 := Rect.unit (s := S49x256x256) ![r % 49, 0, 0] S1x256x256.size (wo_inb r)

/-- The accumulator after the first `r` pooled positions. -/
def accAfter (p1 : FVec F S16x256x64 .f32) (p2 : FVec F S16x64x256 .f32) (g1 b1 : Vec F S64 .f32) (g2 b2 : Vec F S256 .f32)
    (x1 : Vec F S49x16x256 .f32) (x4 : Vec F S49x256x256 .bf16) : ℕ → FVec F S16x256 .f32
  | 0 => acc0
  | r + 1 => step p1 p2 g1 b1 g2 b2 (accAfter p1 p2 g1 b1 g2 b2 x1 x4 r) (View.ld x1 (roiRect r)) (View.ld x4 (woRect r))

/-- The value the body stores, from the staged blocks. -/
def body (x0 : Vec F S16x256 .f32) (x1 : Vec F S49x16x256 .f32) (x2 : Vec F S256x32768 .bf16) (x3 : Vec F S32768 .f32) (x4 : Vec F S49x256x256 .bf16) (x5 : Vec F S256 .f32) (x6 : Vec F S64 .f32) (x7 : Vec F S64 .f32) (x8 : Vec F S256 .f32) (x9 : Vec F S256 .f32) (x10 : Vec F S256 .f32) (x11 : Vec F S256 .f32) : FVec F S16x256 .f32 :=
  finish (View.ld x5 r0_4) (View.ld x10 r0_4) (View.ld x11 r0_4)
    (accAfter (dyn1 (View.ld x0 r0_0) (View.ld x2 r0_1) (View.ld x3 r0_2)) (dyn2 (View.ld x0 r0_0) (View.ld x2 r0_1) (View.ld x3 r0_2))
      (View.ld x6 r0_3) (View.ld x7 r0_3) (View.ld x8 r0_4) (View.ld x9 r0_4) x1 x4 49)

/-- The generated payload tree is the folded body. -/
theorem out0_12_eq_body (x0 : Vec F S16x256 .f32) (x1 : Vec F S49x16x256 .f32) (x2 : Vec F S256x32768 .bf16) (x3 : Vec F S32768 .f32) (x4 : Vec F S49x256x256 .bf16) (x5 : Vec F S256 .f32) (x6 : Vec F S64 .f32) (x7 : Vec F S64 .f32) (x8 : Vec F S256 .f32) (x9 : Vec F S256 .f32) (x10 : Vec F S256 .f32) (x11 : Vec F S256 .f32) :
    out0_12 x0 x1 x2 x3 x4 x5 x6 x7 x8 x9 x10 x11 = View.canon [⟨r0_0, body x0 x1 x2 x3 x4 x5 x6 x7 x8 x9 x10 x11⟩] := rfl

end Cert.KernelIdeal.Folded

end
-- ==== Proof.Spec.lean ====
/-
  What one instance's output row is, as a function of that instance's data and the shared weights, over the extended
  reals. An instance has a feature row `x` (256 numbers) and 49 pooled rows `f r` (256 numbers each). Its dynamic
  parameters are `x · Wd + bd` (32768 numbers), read as a 256 x 64 matrix (entry (h, d) at h·64 + d) followed by a
  64 x 256 matrix (entry (d, h) at 16384 + d·256 + h). Each pooled row is contracted with the first matrix, normalised
  over its 64 lanes and clamped at zero, contracted with the second matrix, normalised over 256 lanes and clamped; the
  49 resulting rows, flattened, are contracted with the output weight; the output bias is added and a last normalisation
  over 256 lanes and a clamp finish the row.

  Both programs compute exactly this. They differ only in how the last contraction is associated: one adds the 49
  positions' contributions one after the other onto a zero accumulator, the other takes ONE sum over the flattened
  axis of 49·256. `sum_range_acc` and `sum_flat` are the two rearrangements of a finite sum in a commutative monoid that
  join them; no distributivity or cancellation is used, so nothing here asks the numbers to be finite.
-/
import Idealize.ShloMosaic.PureOps.Ideal
import Idealize.ShloMosaic.Lib.ValueIdx
import Mathlib.Algebra.BigOperators.Fin
import Mathlib.Algebra.BigOperators.Group.Finset.Basic
import Mathlib.Logic.Equiv.Fin.Basic

noncomputable section

namespace Cert.Dyn

open Idealize.ShloMosaic
open scoped BigOperators

/-- The zero word. -/
abbrev zero : EReal := Ideal.ofBits .f32 0x00000000#32
/-- The epsilon word both programs add to a variance. -/
abbrev eps : EReal := Ideal.ofBits .f32 0x3727C5AC#32
/-- The word of 64.0, the lane count of the first normalisation. -/
abbrev c64 : EReal := Ideal.ofBits .f32 0x42800000#32
/-- The word of 256.0, the lane count of the other two. -/
abbrev c256 : EReal := Ideal.ofBits .f32 0x43800000#32

/-- The mean of a row: its sum divided by the lane-count word. -/
def mean {k : ℕ} (cnt : EReal) (x : Fin k → EReal) : EReal := Ideal.div (∑ i, x i) cnt

/-- The variance of a row: the mean of the squared deviations. -/
def var {k : ℕ} (cnt : EReal) (x : Fin k → EReal) : EReal :=
  Ideal.div (∑ i, (x i - mean cnt x) * (x i - mean cnt x)) cnt

/-- Lane `j` of a row after normalisation, scale `g`, shift `b` and the clamp at zero. -/
def normRelu {k : ℕ} (cnt : EReal) (x g b : Fin k → EReal) (j : Fin k) : EReal :=
  max ((x j - mean cnt x) * Ideal.rsqrt (var cnt x + eps) * g j + b j) zero

/-- Where entry (h, d) of the first parameter matrix sits among the 32768 parameters. -/
def lane1 (h : Fin 256) (d : Fin 64) : Fin 32768 := ⟨h.val * 64 + d.val, by have := h.isLt; have := d.isLt; omega⟩
/-- Where entry (d, h) of the second parameter matrix sits. -/
def lane2 (d : Fin 64) (h : Fin 256) : Fin 32768 := ⟨16384 + (d.val * 256 + h.val), by have := h.isLt; have := d.isLt; omega⟩
/-- Where lane h of position r sits on the flattened axis of the output contraction. -/
def flat (r : Fin 49) (h : Fin 256) : Fin 12544 := ⟨r.val * 256 + h.val, by have := h.isLt; have := r.isLt; omega⟩

section
variable (Wd : Fin 256 → Fin 32768 → EReal) (bd : Fin 32768 → EReal)
variable (g1 b1 : Fin 64 → EReal) (g2 b2 : Fin 256 → EReal)

/-- One dynamic parameter of an instance. -/
def param (x : Fin 256 → EReal) (c : Fin 32768) : EReal := (∑ j : Fin 256, x j * Wd j c) + bd c

/-- A pooled row contracted with the first parameter matrix. -/
def mid1 (x f : Fin 256 → EReal) (d : Fin 64) : EReal := ∑ h : Fin 256, f h * param Wd bd x (lane1 h d)

/-- ... normalised over its 64 lanes and clamped. -/
def act1 (x f : Fin 256 → EReal) : Fin 64 → EReal := normRelu c64 (mid1 Wd bd x f) g1 b1

/-- ... contracted with the second parameter matrix. -/
def mid2 (x f : Fin 256 → EReal) (h : Fin 256) : EReal := ∑ d : Fin 64, act1 Wd bd g1 b1 x f d * param Wd bd x (lane2 d h)

/-- ... normalised over its 256 lanes and clamped: what one pooled position hands to the output contraction. -/
def act2 (x f : Fin 256 → EReal) : Fin 256 → EReal := normRelu c256 (mid2 Wd bd g1 b1 x f) g2 b2

/-- The output contraction over the 49 positions and their 256 lanes. -/
def proj (Wo : Fin 49 → Fin 256 → Fin 256 → EReal) (x : Fin 256 → EReal) (f : Fin 49 → Fin 256 → EReal) (k : Fin 256) : EReal :=
  ∑ r : Fin 49, ∑ h : Fin 256, act2 Wd bd g1 b1 g2 b2 x (f r) h * Wo r h k

/-- The instance's output row. -/
def outRow (Wo : Fin 49 → Fin 256 → Fin 256 → EReal) (bo g3 b3 : Fin 256 → EReal) (x : Fin 256 → EReal)
    (f : Fin 49 → Fin 256 → EReal) : Fin 256 → EReal :=
  normRelu c256 (fun k => proj Wd bd g1 b1 g2 b2 Wo x f k + bo k) g3 b3
end

/-- Adding terms one after the other onto an accumulator is the accumulator plus their sum. -/
theorem sum_range_acc (a : EReal) (s : ℕ → EReal) (acc : ℕ → EReal) (h0 : acc 0 = a)
    (hs : ∀ r, acc (r + 1) = acc r + s r) (n : ℕ) : acc n = a + ∑ r ∈ Finset.range n, s r := by
  induction n with
  | zero => simp [h0]
  | succ n ih => rw [hs, ih, Finset.sum_range_succ, add_assoc]

/-- One sum over the flattened axis is the double sum over position and lane. -/
theorem sum_flat (F : Fin 12544 → EReal) : ∑ q : Fin 12544, F q = ∑ r : Fin 49, ∑ h : Fin 256, F (flat r h) := by
  let e : Fin 49 × Fin 256 ≃ Fin 12544 := finProdFinEquiv (m := 49) (n := 256)
  have he : ∀ p : Fin 49 × Fin 256, e p = flat p.1 p.2 := fun p => Fin.ext (by
    show p.2.val + 256 * p.1.val = p.1.val * 256 + p.2.val
    omega)
  rw [← e.sum_comp, Fintype.sum_prod_type]
  exact Finset.sum_congr rfl fun r _ => Finset.sum_congr rfl fun h _ => congrArg F (he (r, h))

end Cert.Dyn

end
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.ReadDyn.lean ====
/-
  The dynamic parameters of a block of 16 instances, entry by entry, over the extended reals: the matmul into a zero
  accumulator is the plain sum over the 256 features, the bias row is broadcast over the 16 instances, and the two
  halves of the 32768 parameters are re-laid row-major as a 256 x 64 and a 64 x 256 matrix per instance.
-/
import proofs.«169738_j79053168050560_1_alg».proof.Proof.Folded
import proofs.«169738_j79053168050560_1_alg».proof.Proof.Spec
import proofs.«169738_j79053168050560_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Folded

open Idealize.ShloMosaic Idealize.ShloMosaic.ValueIdx Idealize.SL.Sem
open Cert.KernelIdeal Cert.KernelIdeal.Facts₀ Cert.KernelIdeal.Facts
open scoped BigOperators

/-- Axis 0 of the left operand's index is the output's row. -/
private theorem lhs_dyn_0 (i : S16x32768.Idx) (q : dot_S16x256_S256x32768_S16x32768_1_0_0_1_n_n.contr.Idx) :
    (dot_S16x256_S256x32768_S16x32768_1_0_0_1_n_n.lhsIdx i q 0).val = (i 0).val := by
  unfold DotDims.lhsIdx
  rw [dif_neg (show ¬(0 : Fin S16x256.rank) ∈ dot_S16x256_S256x32768_S16x32768_1_0_0_1_n_n.lhsBatch by decide), dif_pos (show (0 : Fin S16x256.rank) ∈ dot_S16x256_S256x32768_S16x32768_1_0_0_1_n_n.lhsNonContracting by decide)]
  rfl
/-- Axis 1 of the left operand's index is the contraction coordinate. -/
private theorem lhs_dyn_1 (i : S16x32768.Idx) (q : dot_S16x256_S256x32768_S16x32768_1_0_0_1_n_n.contr.Idx) :
    (dot_S16x256_S256x32768_S16x32768_1_0_0_1_n_n.lhsIdx i q 1).val = (q ⟨0, by decide⟩).val :=
  dot_S16x256_S256x32768_S16x32768_1_0_0_1_n_n.lhsIdx_val_of_single rfl i q
/-- Axis 0 of the right operand's index is the contraction coordinate. -/
private theorem rhs_dyn_0 (i : S16x32768.Idx) (q : dot_S16x256_S256x32768_S16x32768_1_0_0_1_n_n.contr.Idx) :
    (dot_S16x256_S256x32768_S16x32768_1_0_0_1_n_n.rhsIdx i q 0).val = (q ⟨0, by decide⟩).val :=
  dot_S16x256_S256x32768_S16x32768_1_0_0_1_n_n.rhsIdx_val_of_single rfl i q
/-- Axis 1 of the right operand's index is the output's column. -/
private theorem rhs_dyn_1 (i : S16x32768.Idx) (q : dot_S16x256_S256x32768_S16x32768_1_0_0_1_n_n.contr.Idx) :
    (dot_S16x256_S256x32768_S16x32768_1_0_0_1_n_n.rhsIdx i q 1).val = (i 1).val := by
  unfold DotDims.rhsIdx
  rw [dif_neg (show ¬(1 : Fin S256x32768.rank) ∈ dot_S16x256_S256x32768_S16x32768_1_0_0_1_n_n.rhsBatch by decide), dif_pos (show (1 : Fin S256x32768.rank) ∈ dot_S16x256_S256x32768_S16x32768_1_0_0_1_n_n.rhsNonContracting by decide)]
  rfl

/-- The matmul into the zero accumulator, read at (n, c): the sum over the 256 contracted features. -/
private theorem matmul_dyn_apply (l : FVec Ideal S16x256 .bf16) (r : FVec Ideal S256x32768 .bf16) (n : Fin 16) (c : Fin 32768) :
    matmul dot_S16x256_S256x32768_S16x32768_1_0_0_1_n_n none l r (constant (F := Ideal) S16x32768 .f32 0x00000000#32) (ix2 n c)
      = ∑ j : Fin 256, l (ix2 n j) * r (ix2 j c) := by
  simp only [matmul]
  rw [Ideal.matmul_constant_zero_apply, ← Equiv.sum_comp (contrEquiv1 dot_S16x256_S256x32768_S16x32768_1_0_0_1_n_n 256 rfl rfl).symm]
  refine Finset.sum_congr rfl fun k _ => ?_
  have hk := contrEquiv1_symm_val dot_S16x256_S256x32768_S16x32768_1_0_0_1_n_n 256 rfl rfl k
  have el : dot_S16x256_S256x32768_S16x32768_1_0_0_1_n_n.lhsIdx (ix2 n c) ((contrEquiv1 dot_S16x256_S256x32768_S16x32768_1_0_0_1_n_n 256 rfl rfl).symm k) = ix2 n k := funext fun a => Fin.ext (by
    match a with
    | ⟨0, _⟩ => exact lhs_dyn_0 _ _
    | ⟨1, _⟩ => exact (lhs_dyn_1 _ _).trans hk)
  have er : dot_S16x256_S256x32768_S16x32768_1_0_0_1_n_n.rhsIdx (ix2 n c) ((contrEquiv1 dot_S16x256_S256x32768_S16x32768_1_0_0_1_n_n 256 rfl rfl).symm k) = ix2 k c := funext fun a => Fin.ext (by
    match a with
    | ⟨0, _⟩ => exact (rhs_dyn_0 _ _).trans hk
    | ⟨1, _⟩ => exact rhs_dyn_1 _ _)
  rw [el, er]

/-- Parameter c of instance n: the features times column c of the dynamic weight, plus the bias at c. -/
private theorem dyn_apply (x : FVec Ideal S16x256 .f32) (w : FVec Ideal S256x32768 .bf16) (b : FVec Ideal S32768 .f32)
    (n : Fin 16) (c : Fin 32768) :
    dyn (F := Ideal) x w b (ix2 n c)
      = Cert.Dyn.param (fun j c => w (ix2 j c)) (fun c => b (ix1 c)) (fun j => x (ix2 n j)) c := by
  unfold dyn Cert.Dyn.param
  simp only [shapeCast_self]
  refine congrArg₂ (· + ·) ((matmul_dyn_apply _ _ n c).trans ?_) ?_
  · rfl
  · exact (broadcastTo_1b_ab_apply _ broadcasts_S1x32768_S16x32768 n c).trans (shapeCast_a_1a_apply b shapeCasts_S32768_S1x32768 0 c)

/-- Entry (h, d) of instance n's first parameter matrix is parameter h·64 + d of that instance. -/
theorem dyn1_apply (x : FVec Ideal S16x256 .f32) (w : FVec Ideal S256x32768 .bf16) (b : FVec Ideal S32768 .f32)
    (n : Fin 16) (h : Fin 256) (d : Fin 64) :
    dyn1 (F := Ideal) x w b (ix3 n h d)
      = Cert.Dyn.param (fun j c => w (ix2 j c)) (fun c => b (ix1 c)) (fun j => x (ix2 n j)) (Cert.Dyn.lane1 h d) := by
  have hh := h.isLt
  have hd := d.isLt
  unfold dyn1
  -- the row-major cast: (n, h, d) of [16, 256, 64] is (n, h·64 + d) of [16, 16384]
  refine (shapeCast_apply _ shapeCasts_S16x16384_S16x256x64 (ix3 n h d)
    (ix2 n (⟨h.val * 64 + d.val, by omega⟩ : Fin 16384)) ?_).trans ?_
  · rw [Shape.rowMajor_val_two, Shape.rowMajor_val_three]
    show n.val * 16384 + (h.val * 64 + d.val) = (n.val * 256 + h.val) * 64 + d.val
    omega
  -- the slice from column 0, then the parameter at that column
  · refine (slice2_axis1_apply 0 _ slices_S16x32768_o0_0_S16x16384 n _ (Cert.Dyn.lane1 h d) ?_).trans
      (dyn_apply x w b n _)
    show h.val * 64 + d.val = 0 + (h.val * 64 + d.val)
    omega

/-- Entry (d, h) of instance n's second parameter matrix is parameter 16384 + d·256 + h of that instance. -/
theorem dyn2_apply (x : FVec Ideal S16x256 .f32) (w : FVec Ideal S256x32768 .bf16) (b : FVec Ideal S32768 .f32)
    (n : Fin 16) (d : Fin 64) (h : Fin 256) :
    dyn2 (F := Ideal) x w b (ix3 n d h)
      = Cert.Dyn.param (fun j c => w (ix2 j c)) (fun c => b (ix1 c)) (fun j => x (ix2 n j)) (Cert.Dyn.lane2 d h) := by
  have hh := h.isLt
  have hd := d.isLt
  unfold dyn2
  -- the row-major cast: (n, d, h) of [16, 64, 256] is (n, d·256 + h) of [16, 16384]
  refine (shapeCast_apply _ shapeCasts_S16x16384_S16x64x256 (ix3 n d h)
    (ix2 n (⟨d.val * 256 + h.val, by omega⟩ : Fin 16384)) ?_).trans ?_
  · rw [Shape.rowMajor_val_two, Shape.rowMajor_val_three]
    show n.val * 16384 + (d.val * 256 + h.val) = (n.val * 64 + d.val) * 256 + h.val
    omega
  -- the slice from column 16384, then the parameter at that column
  · exact (slice2_axis1_apply 16384 _ slices_S16x32768_o0_16384_S16x16384 n _ (Cert.Dyn.lane2 d h) rfl).trans
      (dyn_apply x w b n _)

end Cert.KernelIdeal.Folded

end
-- ==== Proof.ReadContract.lean ====
/-
  The body's three contractions, entry by entry, over the extended reals. The two per-instance vector-matrix products
  are written in the kernel as a broadcast, a pointwise product and a lane sum over the middle axis; the output
  projection is a matmul into a zero accumulator added to the running accumulator. Each is a plain finite sum.
-/
import proofs.«169738_j79053168050560_1_alg».proof.Proof.Folded
import proofs.«169738_j79053168050560_1_alg».proof.Proof.Spec
import proofs.«169738_j79053168050560_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Folded

open Idealize.ShloMosaic Idealize.ShloMosaic.ValueIdx Idealize.SL.Sem
open Cert.KernelIdeal Cert.KernelIdeal.Facts₀ Cert.KernelIdeal.Facts
open scoped BigOperators

/-! ## Three layout readings at rank 3, for any extents -/

/-- An `[a, b]` array cast to `[a, b, 1]` reads, at `(i, j, u)`, the operand at `(i, j)`: the two row-major positions
    agree because the unit coordinate is `0`. -/
private theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast along its last axis to `[a, b, c]` reads, at `(i, j, k)`, the operand at `(i, j, 0)`. -/
private theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- At the ideal values the sum of an `[a, b, c]` vector over its middle axis, read at `(i, k)`, is `∑ j, v (i, j, k)`
    (the accumulator is the neutral zero, which the sum drops). -/
private theorem multiReduction_add_mid {a b c : ℕ} {φ : FTy} (v : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ v acc h hφ hacc (ix2 i k) = ∑ j : Fin b, v (ix3 i j k) :=
  (Ideal.multiReduction_add_single v acc h hφ hacc (ix2 i k)).trans
    (Finset.sum_congr rfl fun j _ => congrArg v (funext fun ax => Fin.ext (by
      match ax with
      | ⟨0, _⟩ => rfl
      | ⟨1, _⟩ => rfl
      | ⟨2, _⟩ => rfl)))

/-- Instance n's pooled row times its 256 x 64 parameter matrix, at lane d. -/
theorem contract1_apply (p1 : FVec Ideal S16x256x64 .f32) (f : FVec Ideal S1x16x256 .f32) (n : Fin 16) (d : Fin 64) :
    contract1 (F := Ideal) p1 f (ix2 n d) = ∑ h : Fin 256, f (ix3 0 n h) * p1 (ix3 n h d) := by
  unfold contract1
  refine (multiReduction_add_mid _ _ reduces_S16x256x64_S16x64 (.inl rfl) rfl n d).trans ?_
  refine Finset.sum_congr rfl fun h _ => ?_
  show broadcastTo S16x256x64 _ broadcasts_S16x256x1_S16x256x64 (ix3 n h d) * p1 (ix3 n h d) = _
  rw [broadcastTo_ab1_abc_apply, shapeCast_ab_ab1_apply, shapeCast_1ab_ab_apply]

/-- Instance n's 64-lane row times its 64 x 256 parameter matrix, at lane h. -/
theorem contract2_apply (p2 : FVec Ideal S16x64x256 .f32) (y : FVec Ideal S16x64 .f32) (n : Fin 16) (h : Fin 256) :
    contract2 (F := Ideal) p2 y (ix2 n h) = ∑ d : Fin 64, y (ix2 n d) * p2 (ix3 n d h) := by
  unfold contract2
  refine (multiReduction_add_mid _ _ reduces_S16x64x256_S16x256 (.inl rfl) rfl n h).trans ?_
  refine Finset.sum_congr rfl fun d _ => ?_
  show broadcastTo S16x64x256 _ broadcasts_S16x64x1_S16x64x256 (ix3 n d h) * p2 (ix3 n d h) = _
  rw [broadcastTo_ab1_abc_apply, shapeCast_ab_ab1_apply]

/-! ## The output projection's operand indices, axis by axis -/

private theorem lhs_project_0 (i : S16x256.Idx) (q : dot_S16x256_S256x256_S16x256_1_0_0_1_n_n.contr.Idx) :
    (dot_S16x256_S256x256_S16x256_1_0_0_1_n_n.lhsIdx i q 0).val = (i 0).val := by
  unfold DotDims.lhsIdx
  rw [dif_neg (show ¬(0 : Fin S16x256.rank) ∈ dot_S16x256_S256x256_S16x256_1_0_0_1_n_n.lhsBatch by decide), dif_pos (show (0 : Fin S16x256.rank) ∈ dot_S16x256_S256x256_S16x256_1_0_0_1_n_n.lhsNonContracting by decide)]
  rfl
private theorem lhs_project_1 (i : S16x256.Idx) (q : dot_S16x256_S256x256_S16x256_1_0_0_1_n_n.contr.Idx) :
    (dot_S16x256_S256x256_S16x256_1_0_0_1_n_n.lhsIdx i q 1).val = (q ⟨0, by decide⟩).val :=
  dot_S16x256_S256x256_S16x256_1_0_0_1_n_n.lhsIdx_val_of_single rfl i q
private theorem rhs_project_0 (i : S16x256.Idx) (q : dot_S16x256_S256x256_S16x256_1_0_0_1_n_n.contr.Idx) :
    (dot_S16x256_S256x256_S16x256_1_0_0_1_n_n.rhsIdx i q 0).val = (q ⟨0, by decide⟩).val :=
  dot_S16x256_S256x256_S16x256_1_0_0_1_n_n.rhsIdx_val_of_single rfl i q
private theorem rhs_project_1 (i : S16x256.Idx) (q : dot_S16x256_S256x256_S16x256_1_0_0_1_n_n.contr.Idx) :
    (dot_S16x256_S256x256_S16x256_1_0_0_1_n_n.rhsIdx i q 1).val = (i 1).val := by
  unfold DotDims.rhsIdx
  rw [dif_neg (show ¬(1 : Fin S256x256.rank) ∈ dot_S16x256_S256x256_S16x256_1_0_0_1_n_n.rhsBatch by decide), dif_pos (show (1 : Fin S256x256.rank) ∈ dot_S16x256_S256x256_S16x256_1_0_0_1_n_n.rhsNonContracting by decide)]
  rfl

/-- The accumulator plus instance n's 256-lane row times one slab of the output weight, at column k. -/
theorem project_apply (acc y : FVec Ideal S16x256 .f32) (w : FVec Ideal S1x256x256 .bf16) (n : Fin 16) (k : Fin 256) :
    project (F := Ideal) acc y w (ix2 n k) = acc (ix2 n k) + ∑ h : Fin 256, y (ix2 n h) * w (ix3 0 h k) := by
  unfold project
  show acc (ix2 n k) + matmul dot_S16x256_S256x256_S16x256_1_0_0_1_n_n none _ _ (constant S16x256 .f32 0x00000000#32) (ix2 n k) = _
  refine congrArg (acc (ix2 n k) + ·) ?_
  simp only [matmul]
  rw [Ideal.matmul_constant_zero_apply, ← Equiv.sum_comp (ValueIdx.contrEquiv1 dot_S16x256_S256x256_S16x256_1_0_0_1_n_n 256 rfl rfl).symm]
  refine Finset.sum_congr rfl fun h _ => ?_
  have hk := ValueIdx.contrEquiv1_symm_val dot_S16x256_S256x256_S16x256_1_0_0_1_n_n 256 rfl rfl h
  have el : dot_S16x256_S256x256_S16x256_1_0_0_1_n_n.lhsIdx (ix2 n k) ((ValueIdx.contrEquiv1 dot_S16x256_S256x256_S16x256_1_0_0_1_n_n 256 rfl rfl).symm h) = ix2 n h := funext fun a => Fin.ext (by
    match a with
    | ⟨0, _⟩ => exact lhs_project_0 _ _
    | ⟨1, _⟩ => exact (lhs_project_1 _ _).trans hk)
  have er : dot_S16x256_S256x256_S16x256_1_0_0_1_n_n.rhsIdx (ix2 n k) ((ValueIdx.contrEquiv1 dot_S16x256_S256x256_S16x256_1_0_0_1_n_n 256 rfl rfl).symm h) = ix2 h k := funext fun a => Fin.ext (by
    match a with
    | ⟨0, _⟩ => exact (rhs_project_0 _ _).trans hk
    | ⟨1, _⟩ => exact rhs_project_1 _ _)
  rw [el, er]
  show y (ix2 n h) * shapeCast S256x256 w shapeCasts_S1x256x256_S256x256 (ix2 h k) = _
  rw [shapeCast_1ab_ab_apply]

end Cert.KernelIdeal.Folded

end
-- ==== Proof.ReadNorm.lean ====
/-
  The body's normalisations, entry by entry, over the extended reals: the row's mean and variance are lane sums
  divided by the lane-count word, kept as a unit column and broadcast back along the row; the result at lane j is the
  row normalisation `Cert.Dyn.normRelu` of that row.
-/
import proofs.«169738_j79053168050560_1_alg».proof.Proof.Folded
import proofs.«169738_j79053168050560_1_alg».proof.Proof.Spec
import proofs.«169738_j79053168050560_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Folded

open Idealize.ShloMosaic Idealize.ShloMosaic.ValueIdx Idealize.SL.Sem
open Cert.KernelIdeal Cert.KernelIdeal.Facts₀ Cert.KernelIdeal.Facts
open scoped BigOperators

/-! The two normalisations are the same chain at two lane counts, so it is read once, for any lane count `b`. -/

/-- The row normalisation of a `16 x b` vector as the body computes it: the lane sum kept as a unit column and divided by
    the lane-count word `c` (the mean column), the deviations from it, their squares' lane sum divided by `c` again (the
    variance column), the reciprocal square root of the variance plus `e`, then gain row, shift row and the clamp at `z`. -/
private def normGen {b : ℕ} (c e z : EReal) (hr : (⟨2, ![16, b]⟩ : Shape).Reduces [1] S16) (hc : S16.ShapeCasts S16x1)
    (hb : S16x1.Broadcasts ⟨2, ![16, b]⟩) (hg : (⟨1, ![b]⟩ : Shape).ShapeCasts ⟨2, ![1, b]⟩)
    (hgb : (⟨2, ![1, b]⟩ : Shape).Broadcasts ⟨2, ![16, b]⟩)
    (g s : FVec Ideal ⟨1, ![b]⟩ .f32) (v : FVec Ideal ⟨2, ![16, b]⟩ .f32) : FVec Ideal ⟨2, ![16, b]⟩ .f32 :=
  let m : FVec Ideal S16x1 .f32 :=
    divf (shapeCast S16x1 (multiReduction (F := Ideal) .add [1] S16 v 0x00000000#32 hr (.inl rfl) rfl) hc) (broadcast S16x1 c)
  let dv : FVec Ideal ⟨2, ![16, b]⟩ .f32 := subf v (broadcastTo ⟨2, ![16, b]⟩ m hb)
  let q : FVec Ideal S16x1 .f32 :=
    divf (shapeCast S16x1 (multiReduction (F := Ideal) .add [1] S16 (mulf dv dv) 0x00000000#32 hr (.inl rfl) rfl) hc)
      (broadcast S16x1 c)
  let r : FVec Ideal S16x1 .f32 := rsqrt (addf q (broadcast S16x1 e))
  maximumf
    (addf (mulf (mulf dv (broadcastTo ⟨2, ![16, b]⟩ r hb)) (broadcastTo ⟨2, ![16, b]⟩ (shapeCast ⟨2, ![1, b]⟩ g hg) hgb))
      (broadcastTo ⟨2, ![16, b]⟩ (shapeCast ⟨2, ![1, b]⟩ s hg) hgb))
    (broadcast ⟨2, ![16, b]⟩ z)

/-- A lane sum over the second axis, kept as a unit column and divided by the word `c`: at row `n` it is the row's sum
    divided by `c`, whatever the unit coordinate. -/
private theorem sumColDiv_apply {b : ℕ} (w : FVec Ideal ⟨2, ![16, b]⟩ .f32) (c : EReal)
    (hr : (⟨2, ![16, b]⟩ : Shape).Reduces [1] S16) (hc : S16.ShapeCasts S16x1) (n : Fin 16) (u : Fin 1) :
    divf (shapeCast S16x1 (multiReduction (F := Ideal) .add [1] S16 w 0x00000000#32 hr (.inl rfl) rfl) hc) (broadcast S16x1 c)
        (ix2 n u)
      = Ideal.div (∑ k : Fin b, w (ix2 n k)) c :=
  congrArg (fun t => Ideal.div t c)
    ((shapeCast_a_a1_apply _ hc n u).trans (multiReduction_add_rows w _ hr (.inl rfl) rfl n))

/-- The generic chain at row `n`, lane `d`: the row normalisation of row `n`. -/
private theorem normGen_apply {b : ℕ} (c e z : EReal) (hr : (⟨2, ![16, b]⟩ : Shape).Reduces [1] S16) (hc : S16.ShapeCasts S16x1)
    (hb : S16x1.Broadcasts ⟨2, ![16, b]⟩) (hg : (⟨1, ![b]⟩ : Shape).ShapeCasts ⟨2, ![1, b]⟩)
    (hgb : (⟨2, ![1, b]⟩ : Shape).Broadcasts ⟨2, ![16, b]⟩)
    (g s : FVec Ideal ⟨1, ![b]⟩ .f32) (v : FVec Ideal ⟨2, ![16, b]⟩ .f32) (n : Fin 16) (d : Fin b) :
    normGen c e z hr hc hb hg hgb g s v (ix2 n d)
      = max ((v (ix2 n d) - Cert.Dyn.mean c (fun i => v (ix2 n i)))
              * Ideal.rsqrt (Cert.Dyn.var c (fun i => v (ix2 n i)) + e) * g (ix1 d) + s (ix1 d)) z  := by
  -- the mean column, at row n
  let m : FVec Ideal S16x1 .f32 :=
    divf (shapeCast S16x1 (multiReduction (F := Ideal) .add [1] S16 v 0x00000000#32 hr (.inl rfl) rfl) hc) (broadcast S16x1 c)
  have hm : ∀ u : Fin 1, m (ix2 n u) = Cert.Dyn.mean c (fun i => v (ix2 n i)) := fun u => sumColDiv_apply v c hr hc n u
  -- the deviations of row n
  let dv : FVec Ideal ⟨2, ![16, b]⟩ .f32 := subf v (broadcastTo ⟨2, ![16, b]⟩ m hb)
  have hdv : ∀ k : Fin b, dv (ix2 n k) = v (ix2 n k) - Cert.Dyn.mean c (fun i => v (ix2 n i)) := fun k =>
    congrArg (fun t => v (ix2 n k) - t) ((broadcastTo_a1_ab_apply m hb n k).trans (hm 0))
  -- the variance column, at row n
  let q : FVec Ideal S16x1 .f32 :=
    divf (shapeCast S16x1 (multiReduction (F := Ideal) .add [1] S16 (mulf dv dv) 0x00000000#32 hr (.inl rfl) rfl) hc)
      (broadcast S16x1 c)
  have hq : ∀ u : Fin 1, q (ix2 n u) = Cert.Dyn.var c (fun i => v (ix2 n i)) := fun u =>
    (sumColDiv_apply (mulf dv dv) c hr hc n u).trans
      (congrArg (fun t => Ideal.div t c) (Finset.sum_congr rfl fun k _ => by
        show dv (ix2 n k) * dv (ix2 n k) = _
        rw [hdv k]))
  -- its reciprocal square root
  let r : FVec Ideal S16x1 .f32 := rsqrt (addf q (broadcast S16x1 e))
  have hrs : ∀ u : Fin 1, r (ix2 n u) = Ideal.rsqrt (Cert.Dyn.var c (fun i => v (ix2 n i)) + e) := fun u =>
    congrArg (fun t => Ideal.rsqrt (t + e)) (hq u)
  show max (dv (ix2 n d) * broadcastTo ⟨2, ![16, b]⟩ r hb (ix2 n d)
        * broadcastTo ⟨2, ![16, b]⟩ (shapeCast ⟨2, ![1, b]⟩ g hg) hgb (ix2 n d)
      + broadcastTo ⟨2, ![16, b]⟩ (shapeCast ⟨2, ![1, b]⟩ s hg) hgb (ix2 n d)) z = _
  rw [hdv d, broadcastTo_a1_ab_apply r hb n d, hrs 0, broadcastTo_1b_ab_apply _ hgb n d, shapeCast_a_1a_apply g hg 0 d,
    broadcastTo_1b_ab_apply _ hgb n d, shapeCast_a_1a_apply s hg 0 d]

/-- The 64-lane normalisation of instance n's row, at lane d. -/
theorem norm64_apply (g b : FVec Ideal S64 .f32) (v : FVec Ideal S16x64 .f32) (n : Fin 16) (d : Fin 64) :
    norm64 (F := Ideal) g b v (ix2 n d)
      = Cert.Dyn.normRelu Cert.Dyn.c64 (fun i => v (ix2 n i)) (fun i => g (ix1 i)) (fun i => b (ix1 i)) d := by
  -- the body's chain is the generic one at 64 lanes, its three words the lane count, the epsilon and the zero
  have e : norm64 (F := Ideal) g b v
      = normGen Cert.Dyn.c64 Cert.Dyn.eps Cert.Dyn.zero reduces_S16x64_S16 shapeCasts_S16_S16x1 broadcasts_S16x1_S16x64
          shapeCasts_S64_S1x64 broadcasts_S1x64_S16x64 g b v := rfl
  exact (congrFun e (ix2 n d)).trans (normGen_apply _ _ _ _ _ _ _ _ g b v n d)

/-- The 256-lane normalisation of instance n's row, at lane k. -/
theorem norm256_apply (g b : FVec Ideal S256 .f32) (v : FVec Ideal S16x256 .f32) (n : Fin 16) (k : Fin 256) :
    norm256 (F := Ideal) g b v (ix2 n k)
      = Cert.Dyn.normRelu Cert.Dyn.c256 (fun i => v (ix2 n i)) (fun i => g (ix1 i)) (fun i => b (ix1 i)) k := by
  -- the body's chain is the generic one at 256 lanes
  have e : norm256 (F := Ideal) g b v
      = normGen Cert.Dyn.c256 Cert.Dyn.eps Cert.Dyn.zero reduces_S16x256_S16 shapeCasts_S16_S16x1 broadcasts_S16x1_S16x256
          shapeCasts_S256_S1x256 broadcasts_S1x256_S16x256 g b v := rfl
  exact (congrFun e (ix2 n k)).trans (normGen_apply _ _ _ _ _ _ _ _ g b v n k)

/-- The epilogue: the output bias added to instance n's accumulated row, then the 256-lane normalisation, at lane k. -/
theorem finish_apply (bo g3 b3 : FVec Ideal S256 .f32) (acc : FVec Ideal S16x256 .f32) (n : Fin 16) (k : Fin 256) :
    finish (F := Ideal) bo g3 b3 acc (ix2 n k)
      = Cert.Dyn.normRelu Cert.Dyn.c256 (fun i => acc (ix2 n i) + bo (ix1 i)) (fun i => g3 (ix1 i)) (fun i => b3 (ix1 i)) k := by
  -- the bias row, cast to a unit row and broadcast down the 16 instances, reads the bias at the lane
  have hrow : ∀ i : Fin 256,
      addf acc (broadcastTo S16x256 (shapeCast S1x256 bo shapeCasts_S256_S1x256) broadcasts_S1x256_S16x256) (ix2 n i)
        = acc (ix2 n i) + bo (ix1 i) := fun i =>
    congrArg (fun t => acc (ix2 n i) + t)
      ((broadcastTo_1b_ab_apply _ broadcasts_S1x256_S16x256 n i).trans (shapeCast_a_1a_apply bo shapeCasts_S256_S1x256 0 i))
  unfold finish
  refine (norm256_apply g3 b3 _ n k).trans ?_
  exact congrArg (fun x => Cert.Dyn.normRelu Cert.Dyn.c256 x (fun i => g3 (ix1 i)) (fun i => b3 (ix1 i)) k) (funext hrow)

end Cert.KernelIdeal.Folded

end
-- ==== Proof.ReadBody.lean ====
/-
  The value the body stores, entry by entry, over the extended reals. The accumulator after r positions is the zero word
  plus the sum of the first r positions' contributions (each position adds its own term onto the accumulator); after all
  49 this is the double sum over position and lane of the specification's output contraction. Each position's slab of
  the staged pooled block and of the staged output weight is the block read at that position. With the parameters,
  contractions and normalisations read entry by entry, the stored value at (n, k) is lane k of instance n's output row.
-/
import proofs.«169738_j79053168050560_1_alg».proof.Proof.FoldedEq
import proofs.«169738_j79053168050560_1_alg».proof.Proof.ReadDyn
import proofs.«169738_j79053168050560_1_alg».proof.Proof.ReadContract
import proofs.«169738_j79053168050560_1_alg».proof.Proof.ReadNorm

set_option maxRecDepth 16384

noncomputable section

namespace Cert.KernelIdeal.Folded

open Idealize.ShloMosaic Idealize.ShloMosaic.ValueIdx Idealize.SL.Sem
open Cert.KernelIdeal Cert.KernelIdeal.Gen Cert.KernelIdeal.Facts₀ Cert.KernelIdeal.Facts
open scoped BigOperators

/-- Position r's slab of the staged pooled block is the block at position r. -/
theorem ld_roi (x1 : Vec Ideal S49x16x256 .f32) (r : Fin 49) (n : Fin 16) (h : Fin 256) :
    View.ld x1 (roiRect r.val) (ix3 (0 : Fin 1) n h) = x1 (ix3 r n h) := by
  show x1 ((roiRect r.val).idx (ix3 (0 : Fin 1) n h)) = _
  refine congrArg x1 (funext fun a => Fin.ext ?_)
  match a with
  | ⟨0, _⟩ => show r.val % 49 + 1 * 0 = r.val; rw [Nat.mod_eq_of_lt r.isLt]; omega
  | ⟨1, _⟩ => show 0 + 1 * n.val = n.val; omega
  | ⟨2, _⟩ => show 0 + 1 * h.val = h.val; omega

/-- Position r's slab of the staged output weight is the weight at position r. -/
theorem ld_wo (x4 : Vec Ideal S49x256x256 .bf16) (r : Fin 49) (h k : Fin 256) :
    View.ld x4 (woRect r.val) (ix3 (0 : Fin 1) h k) = x4 (ix3 r h k) := by
  show x4 ((woRect r.val).idx (ix3 (0 : Fin 1) h k)) = _
  refine congrArg x4 (funext fun a => Fin.ext ?_)
  match a with
  | ⟨0, _⟩ => show r.val % 49 + 1 * 0 = r.val; rw [Nat.mod_eq_of_lt r.isLt]; omega
  | ⟨1, _⟩ => show 0 + 1 * h.val = h.val; omega
  | ⟨2, _⟩ => show 0 + 1 * k.val = k.val; omega

/-- What one pooled position hands to the output contraction, at lane h of instance n: the specification's `act2` of the
    instance's feature row and that position's pooled row. -/
theorem hidden_apply (X : FVec Ideal S16x256 .f32) (W : FVec Ideal S256x32768 .bf16) (B : FVec Ideal S32768 .f32)
    (g1 b1 : FVec Ideal S64 .f32) (g2 b2 : FVec Ideal S256 .f32) (f : FVec Ideal S1x16x256 .f32) (n : Fin 16) (h : Fin 256) :
    hidden (F := Ideal) (dyn1 X W B) (dyn2 X W B) g1 b1 g2 b2 f (ix2 n h)
      = Cert.Dyn.act2 (fun j c => W (ix2 j c)) (fun c => B (ix1 c)) (fun i => g1 (ix1 i)) (fun i => b1 (ix1 i))
          (fun i => g2 (ix1 i)) (fun i => b2 (ix1 i)) (fun j => X (ix2 n j)) (fun h' => f (ix3 (0 : Fin 1) n h')) h := by
  unfold hidden Cert.Dyn.act2 Cert.Dyn.mid2 Cert.Dyn.act1 Cert.Dyn.mid1
  simp only [norm256_apply, contract2_apply, norm64_apply, contract1_apply, dyn1_apply, dyn2_apply]

/-- The accumulator after r positions: the zero word plus the first r positions' contributions. -/
theorem accAfter_apply (p1 : FVec Ideal S16x256x64 .f32) (p2 : FVec Ideal S16x64x256 .f32) (g1 b1 : FVec Ideal S64 .f32)
    (g2 b2 : FVec Ideal S256 .f32) (x1 : Vec Ideal S49x16x256 .f32) (x4 : Vec Ideal S49x256x256 .bf16)
    (n : Fin 16) (k : Fin 256) (r : ℕ) :
    accAfter (F := Ideal) p1 p2 g1 b1 g2 b2 x1 x4 r (ix2 n k)
      = Cert.Dyn.zero + ∑ q ∈ Finset.range r, ∑ h : Fin 256,
          hidden (F := Ideal) p1 p2 g1 b1 g2 b2 (View.ld x1 (roiRect q)) (ix2 n h) * View.ld x4 (woRect q) (ix3 (0 : Fin 1) h k) :=
  Cert.Dyn.sum_range_acc _ _ (fun r => accAfter (F := Ideal) p1 p2 g1 b1 g2 b2 x1 x4 r (ix2 n k)) rfl
    (fun r => project_apply _ _ _ n k) r

theorem zeros2 : (![0, 0] : Fin 2 → Nat) = fun _ => 0 := funext fun a => by
  match a with
  | ⟨0, _⟩ => rfl
  | ⟨1, _⟩ => rfl

theorem zeros1 : (![0] : Fin 1 → Nat) = fun _ => 0 := funext fun a => by
  match a with
  | ⟨0, _⟩ => rfl

/-- The stored value at (n, k) is lane k of instance n's output row, from the staged blocks. -/
theorem body_apply (x0 : Vec Ideal S16x256 .f32) (x1 : Vec Ideal S49x16x256 .f32) (x2 : Vec Ideal S256x32768 .bf16) (x3 : Vec Ideal S32768 .f32) (x4 : Vec Ideal S49x256x256 .bf16) (x5 : Vec Ideal S256 .f32) (x6 x7 : Vec Ideal S64 .f32) (x8 x9 x10 x11 : Vec Ideal S256 .f32) (n : Fin 16) (k : Fin 256) :
    body (F := Ideal) x0 x1 x2 x3 x4 x5 x6 x7 x8 x9 x10 x11 (ix2 n k)
      = Cert.Dyn.outRow (fun j c => x2 (ix2 j c)) (fun c => x3 (ix1 c)) (fun i => x6 (ix1 i)) (fun i => x7 (ix1 i))
          (fun i => x8 (ix1 i)) (fun i => x9 (ix1 i)) (fun r h k' => x4 (ix3 r h k')) (fun i => x5 (ix1 i))
          (fun i => x10 (ix1 i)) (fun i => x11 (ix1 i)) (fun j => x0 (ix2 n j)) (fun r h => x1 (ix3 r n h)) k := by
  unfold body
  simp only [View.ld_unit_zero (S := S16x256) zeros2, View.ld_unit_zero (S := S256x32768) zeros2,
    View.ld_unit_zero (S := S32768) zeros1, View.ld_unit_zero (S := S64) zeros1, View.ld_unit_zero (S := S256) zeros1]
  have hacc : ∀ i : Fin 256, accAfter (F := Ideal) (dyn1 x0 x2 x3) (dyn2 x0 x2 x3) x6 x7 x8 x9 x1 x4 49 (ix2 n i)
      = ∑ r : Fin 49, ∑ h : Fin 256,
          Cert.Dyn.act2 (fun j c => x2 (ix2 j c)) (fun c => x3 (ix1 c)) (fun i => x6 (ix1 i)) (fun i => x7 (ix1 i))
            (fun i => x8 (ix1 i)) (fun i => x9 (ix1 i)) (fun j => x0 (ix2 n j)) (fun h' => x1 (ix3 r n h')) h * x4 (ix3 r h i) := by
    intro i
    rw [accAfter_apply, Finset.sum_range]
    show Ideal.ofBits .f32 0x00000000#32 + _ = _
    rw [Ideal.ofBits_zero_f32, zero_add]
    refine Finset.sum_congr rfl fun r _ => Finset.sum_congr rfl fun h _ => ?_
    have e : (fun h' => View.ld x1 (roiRect r.val) (ix3 (0 : Fin 1) n h')) = fun h' => x1 (ix3 r n h') :=
      funext fun h' => ld_roi x1 r n h'
    rw [hidden_apply, ld_wo, e]
  rw [finish_apply]
  unfold Cert.Dyn.outRow Cert.Dyn.proj
  simp only [hacc]

end Cert.KernelIdeal.Folded

end
-- ==== Proof.SpecWhole.lean ====
/-
  The whole result array as ONE function of the twelve argument arrays: entry (N, k) is lane k of instance N's output
  row (`Cert.Dyn.outRow`), the instance's feature row and its 49 pooled rows read out of the arrays at N, the output
  weight's row for position r and lane h read at the flattened row r·256 + h.
-/
import proofs.«169738_j79053168050560_1_alg».proof.Proof.Spec

noncomputable section

namespace Cert.Dyn

open Idealize.ShloMosaic Idealize.ShloMosaic.ValueIdx

/-- The result array, entry by entry, from the argument arrays. -/
def whole (a0 : (⟨3, ![1, 2000, 256]⟩ : Shape).Idx → EReal) (a1 : (⟨3, ![49, 2000, 256]⟩ : Shape).Idx → EReal)
    (a2 : (⟨2, ![256, 32768]⟩ : Shape).Idx → EReal) (a3 : (⟨1, ![32768]⟩ : Shape).Idx → EReal)
    (a4 : (⟨2, ![12544, 256]⟩ : Shape).Idx → EReal) (a5 : (⟨1, ![256]⟩ : Shape).Idx → EReal)
    (a6 a7 : (⟨1, ![64]⟩ : Shape).Idx → EReal) (a8 a9 a10 a11 : (⟨1, ![256]⟩ : Shape).Idx → EReal) :
    (⟨2, ![2000, 256]⟩ : Shape).Idx → EReal := fun i =>
  outRow (fun j c => a2 (ix2 j c)) (fun c => a3 (ix1 c)) (fun d => a6 (ix1 d)) (fun d => a7 (ix1 d))
    (fun h => a8 (ix1 h)) (fun h => a9 (ix1 h)) (fun r h k => a4 (ix2 (flat r h) k)) (fun k => a5 (ix1 k))
    (fun k => a10 (ix1 k)) (fun k => a11 (ix1 k)) (fun j => a0 (ix3 (0 : Fin 1) (i 0) j)) (fun r h => a1 (ix3 r (i 0) h)) (i 1)

end Cert.Dyn

end
-- ==== Proof.Blocks.lean ====
/-
  From blocks to the array. Grid point t of the kernel handles instances 16·t .. 16·t + 15: its feature block, its pooled
  block and its output block are rows 16·t + n of their arrays, every other window stages its whole array at every
  point. So what point t writes back is block t of ONE function of the argument arrays, `Cert.Dyn.whole`; the 125
  blocks tile the 2000 rows, and the result array ends holding that function. Two of the staged arrays are made by the
  host before the launch: the features with their unit axis dropped, and the output weight re-laid as 49 slabs of
  256 x 256 (both also pass through a change of float format, the identity over the extended reals).
-/
import proofs.«169738_j79053168050560_1_alg».proof.Proof.Gen.KernelIdeal.Value
import proofs.«169738_j79053168050560_1_alg».proof.Proof.ReadBody
import proofs.«169738_j79053168050560_1_alg».proof.Proof.SpecWhole
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Folded

variable (m : (ℓ : Loc nD τ sig) → Buf (Elt Ideal) ℓ) (ρ : Dev nD → PrngReg)

/-- The result array as the function of the argument arrays. -/
abbrev G (c : Dev nD) : S2000x256.Idx → EReal :=
  Cert.Dyn.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## The arrays the host makes before the launch -/

/-- The features with the unit axis dropped: row N is row (0, N) of the argument. -/
theorem V_feat (c : Dev nD) (N : Fin 2000) (j : Fin 256) :
    (V m c main_v0 : S2000x256.Idx → EReal) (ix2 N j) = m ((c : Thread nD τ).loc main_arg0) (ix3 (0 : Fin 1) N j) := by
  have e : (V m c main_v0 : S2000x256.Idx → EReal)
      = shapeCast S2000x256 (m ((c : Thread nD τ).loc main_arg0)) shapeCasts_S1x2000x256_S2000x256 := by
    dsimp only [Gen.V, Gen.hostOps0]; after_results; rfl
  rw [e]
  exact shapeCast_1ab_ab_apply _ _ N j

/-- The dynamic weight in the other float format: the same numbers. -/
theorem V_wdyn (c : Dev nD) (i : S256x32768.Idx) :
    (V m c main_v1 : S256x32768.Idx → EReal) i = m ((c : Thread nD τ).loc main_arg2) i := by
  have e : (V m c main_v1 : S256x32768.Idx → EReal)
      = (truncf .bf16 (m ((c : Thread nD τ).loc main_arg2) : FVec Ideal S256x32768 .f32) bitsLt_bf16_f32 : FVec Ideal S256x32768 .bf16) := by
    dsimp only [Gen.V, Gen.hostOps0]; after_results
  rw [e]; rfl

/-- The output weight as 49 slabs: entry (r, h, k) is entry (r·256 + h, k) of the argument. -/
theorem V_wout (c : Dev nD) (r : Fin 49) (h k : Fin 256) :
    (V m c main_v3 : S49x256x256.Idx → EReal) (ix3 r h k) = m ((c : Thread nD τ).loc main_arg4) (ix2 (Cert.Dyn.flat r h) k) := by
  have e : (V m c main_v3 : S49x256x256.Idx → EReal)
      = truncf .bf16 (shapeCast S49x256x256 (m ((c : Thread nD τ).loc main_arg4)) shapeCasts_S12544x256_S49x256x256 : FVec Ideal S49x256x256 .f32) bitsLt_bf16_f32 := by
    dsimp only [Gen.V, Gen.hostOps0]; after_results; rfl
  rw [e]
  show shapeCast S49x256x256 (m ((c : Thread nD τ).loc main_arg4)) shapeCasts_S12544x256_S49x256x256 (ix3 r h k) = _
  refine shapeCast_apply (s := S12544x256) (t := S49x256x256) _ _ _ _ ?_
  show ((⟨2, ![12544, 256]⟩ : Shape).rowMajor (ix2 (Cert.Dyn.flat r h) k)).val = ((⟨3, ![49, 256, 256]⟩ : Shape).rowMajor (ix3 r h k)).val
  rw [Shape.rowMajor_val_three, Shape.rowMajor_val_two]
  show (r.val * 256 + h.val) * 256 + k.val = (r.val * 256 + h.val) * 256 + k.val
  rfl

/-! ## The index maps over the grid (decided over the 125 points) -/

/-- The feature window moves with the grid point along the instance axis. -/
theorem idx_feat : ∀ t : Fin cfg0.N, win0_0.index t (0 : Fin 2) = t.val ∧ win0_0.index t (1 : Fin 2) = 0 :=
  (by decide +kernel : ∀ t : Fin grid0.N, _)
/-- So does the pooled window, along its middle axis. -/
theorem idx_pool : ∀ t : Fin cfg0.N, win0_1.index t (0 : Fin 3) = 0 ∧ win0_1.index t (1 : Fin 3) = t.val ∧ win0_1.index t (2 : Fin 3) = 0 :=
  (by decide +kernel : ∀ t : Fin grid0.N, _)
/-- And the output window. -/
theorem idx_out : ∀ t : Fin cfg0.N, win0_12.index t (0 : Fin 2) = t.val ∧ win0_12.index t (1 : Fin 2) = 0 :=
  (by decide +kernel : ∀ t : Fin grid0.N, _)
/-- The two weights stay at block 0. -/
theorem idx_wdyn : ∀ t : Fin cfg0.N, win0_2.index t (0 : Fin 2) = 0 ∧ win0_2.index t (1 : Fin 2) = 0 :=
  (by decide +kernel : ∀ t : Fin grid0.N, _)
theorem idx_wout : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_bdyn : ∀ t : Fin cfg0.N, win0_3.index t (0 : Fin 1) = 0 :=
  (by decide +kernel : ∀ t : Fin grid0.N, _)
theorem idx_bout : ∀ t : Fin cfg0.N, win0_5.index t (0 : Fin 1) = 0 :=
  (by decide +kernel : ∀ t : Fin grid0.N, _)
theorem idx_g1 : ∀ t : Fin cfg0.N, win0_6.index t (0 : Fin 1) = 0 :=
  (by decide +kernel : ∀ t : Fin grid0.N, _)
theorem idx_b1 : ∀ t : Fin cfg0.N, win0_7.index t (0 : Fin 1) = 0 :=
  (by decide +kernel : ∀ t : Fin grid0.N, _)
theorem idx_g2 : ∀ t : Fin cfg0.N, win0_8.index t (0 : Fin 1) = 0 :=
  (by decide +kernel : ∀ t : Fin grid0.N, _)
theorem idx_b2 : ∀ t : Fin cfg0.N, win0_9.index t (0 : Fin 1) = 0 :=
  (by decide +kernel : ∀ t : Fin grid0.N, _)
theorem idx_g3 : ∀ t : Fin cfg0.N, win0_10.index t (0 : Fin 1) = 0 :=
  (by decide +kernel : ∀ t : Fin grid0.N, _)
theorem idx_b3 : ∀ t : Fin cfg0.N, win0_11.index t (0 : Fin 1) = 0 :=
  (by decide +kernel : ∀ t : Fin grid0.N, _)

theorem point_lt (t : Fin cfg0.N) : t.val < 125 := t.isLt

/-- The instance that row n of point t's blocks is. -/
def row (t : Fin cfg0.N) (n : Fin 16) : Fin 2000 := ⟨16 * t.val + n.val, by have := point_lt t; have := n.isLt; omega⟩

/-! ## The blocks at a point -/

theorem blk_feat (c : Dev nD) (t : Fin cfg0.N) (n : Fin 16) (j : Fin 256) :
    (iblk m c 0 t : S16x256.Idx → EReal) (ix2 n j) = m ((c : Thread nD τ).loc main_arg0) (ix3 (0 : Fin 1) (row t n) j) := by
  rw [← V_feat m c (row t n) j]
  show V m c main_v0 (((cfg0.win 0).blk t).view.emb (ix2 n j)) = V m c main_v0 (ix2 (row t n) j)
  refine congrArg (V m c main_v0) (funext fun a => Fin.ext ?_)
  obtain ⟨e0, e1⟩ := idx_feat t
  match a with
  | ⟨0, _⟩ => show win0_0.index t (0 : Fin 2) * 16 + 1 * n.val = 16 * t.val + n.val; omega
  | ⟨1, _⟩ => show win0_0.index t (1 : Fin 2) * 256 + 1 * j.val = j.val; omega

theorem blk_pool (c : Dev nD) (t : Fin cfg0.N) (r : Fin 49) (n : Fin 16) (h : Fin 256) :
    (iblk m c 1 t : S49x16x256.Idx → EReal) (ix3 r n h) = m ((c : Thread nD τ).loc main_arg1) (ix3 r (row t n) h) := by
  rw [← V_main_arg1 m c]
  show V m c main_arg1 (((cfg0.win 1).blk t).view.emb (ix3 r n h)) = V m c main_arg1 (ix3 r (row t n) h)
  refine congrArg (V m c main_arg1) (funext fun a => Fin.ext ?_)
  obtain ⟨e0, e1, e2⟩ := idx_pool t
  match a with
  | ⟨0, _⟩ => show win0_1.index t (0 : Fin 3) * 49 + 1 * r.val = r.val; omega
  | ⟨1, _⟩ => show win0_1.index t (1 : Fin 3) * 16 + 1 * n.val = 16 * t.val + n.val; omega
  | ⟨2, _⟩ => show win0_1.index t (2 : Fin 3) * 256 + 1 * h.val = h.val; omega

theorem blk_wdyn (c : Dev nD) (t : Fin cfg0.N) (j : Fin 256) (q : Fin 32768) :
    (iblk m c 2 t : S256x32768.Idx → EReal) (ix2 j q) = m ((c : Thread nD τ).loc main_arg2) (ix2 j q) := by
  rw [← V_wdyn m c]
  show V m c main_v1 (((cfg0.win 2).blk t).view.emb (ix2 j q)) = V m c main_v1 (ix2 j q)
  refine congrArg (V m c main_v1) (funext fun a => Fin.ext ?_)
  obtain ⟨e0, e1⟩ := idx_wdyn t
  match a with
  | ⟨0, _⟩ => show win0_2.index t (0 : Fin 2) * 256 + 1 * j.val = j.val; omega
  | ⟨1, _⟩ => show win0_2.index t (1 : Fin 2) * 32768 + 1 * q.val = q.val; omega

theorem blk_wout (c : Dev nD) (t : Fin cfg0.N) (r : Fin 49) (h k : Fin 256) :
    (iblk m c 4 t : S49x256x256.Idx → EReal) (ix3 r h k) = m ((c : Thread nD τ).loc main_arg4) (ix2 (Cert.Dyn.flat r h) k) := by
  rw [← V_wout m c r h k]
  show V m c main_v3 (((cfg0.win 4).blk t).view.emb (ix3 r h k)) = V m c main_v3 (ix3 r h k)
  refine congrArg (V m c main_v3) (funext fun a => Fin.ext ?_)
  obtain ⟨e0, e1, e2⟩ := idx_wout t
  match a with
  | ⟨0, _⟩ => show win0_4.index t (0 : Fin 3) * 49 + 1 * r.val = r.val; omega
  | ⟨1, _⟩ => show win0_4.index t (1 : Fin 3) * 256 + 1 * h.val = h.val; omega
  | ⟨2, _⟩ => show win0_4.index t (2 : Fin 3) * 256 + 1 * k.val = k.val; omega

theorem blk_bdyn (c : Dev nD) (t : Fin cfg0.N) (q : Fin 32768) :
    (iblk m c 3 t : S32768.Idx → EReal) (ix1 q) = m ((c : Thread nD τ).loc main_arg3) (ix1 q) := by
  rw [← V_main_arg3 m c]
  show V m c main_arg3 (((cfg0.win 3).blk t).view.emb (ix1 q)) = V m c main_arg3 (ix1 q)
  refine congrArg (V m c main_arg3) (funext fun a => Fin.ext ?_)
  have e0 := idx_bdyn t
  match a with
  | ⟨0, _⟩ => show win0_3.index t (0 : Fin 1) * 32768 + 1 * q.val = q.val; omega

theorem blk_bout (c : Dev nD) (t : Fin cfg0.N) (q : Fin 256) :
    (iblk m c 5 t : S256.Idx → EReal) (ix1 q) = m ((c : Thread nD τ).loc main_arg5) (ix1 q) := by
  rw [← V_main_arg5 m c]
  show V m c main_arg5 (((cfg0.win 5).blk t).view.emb (ix1 q)) = V m c main_arg5 (ix1 q)
  refine congrArg (V m c main_arg5) (funext fun a => Fin.ext ?_)
  have e0 := idx_bout t
  match a with
  | ⟨0, _⟩ => show win0_5.index t (0 : Fin 1) * 256 + 1 * q.val = q.val; omega

theorem blk_g1 (c : Dev nD) (t : Fin cfg0.N) (q : Fin 64) :
    (iblk m c 6 t : S64.Idx → EReal) (ix1 q) = m ((c : Thread nD τ).loc main_arg6) (ix1 q) := by
  rw [← V_main_arg6 m c]
  show V m c main_arg6 (((cfg0.win 6).blk t).view.emb (ix1 q)) = V m c main_arg6 (ix1 q)
  refine congrArg (V m c main_arg6) (funext fun a => Fin.ext ?_)
  have e0 := idx_g1 t
  match a with
  | ⟨0, _⟩ => show win0_6.index t (0 : Fin 1) * 64 + 1 * q.val = q.val; omega

theorem blk_b1 (c : Dev nD) (t : Fin cfg0.N) (q : Fin 64) :
    (iblk m c 7 t : S64.Idx → EReal) (ix1 q) = m ((c : Thread nD τ).loc main_arg7) (ix1 q) := by
  rw [← V_main_arg7 m c]
  show V m c main_arg7 (((cfg0.win 7).blk t).view.emb (ix1 q)) = V m c main_arg7 (ix1 q)
  refine congrArg (V m c main_arg7) (funext fun a => Fin.ext ?_)
  have e0 := idx_b1 t
  match a with
  | ⟨0, _⟩ => show win0_7.index t (0 : Fin 1) * 64 + 1 * q.val = q.val; omega

theorem blk_g2 (c : Dev nD) (t : Fin cfg0.N) (q : Fin 256) :
    (iblk m c 8 t : S256.Idx → EReal) (ix1 q) = m ((c : Thread nD τ).loc main_arg8) (ix1 q) := by
  rw [← V_main_arg8 m c]
  show V m c main_arg8 (((cfg0.win 8).blk t).view.emb (ix1 q)) = V m c main_arg8 (ix1 q)
  refine congrArg (V m c main_arg8) (funext fun a => Fin.ext ?_)
  have e0 := idx_g2 t
  match a with
  | ⟨0, _⟩ => show win0_8.index t (0 : Fin 1) * 256 + 1 * q.val = q.val; omega

theorem blk_b2 (c : Dev nD) (t : Fin cfg0.N) (q : Fin 256) :
    (iblk m c 9 t : S256.Idx → EReal) (ix1 q) = m ((c : Thread nD τ).loc main_arg9) (ix1 q) := by
  rw [← V_main_arg9 m c]
  show V m c main_arg9 (((cfg0.win 9).blk t).view.emb (ix1 q)) = V m c main_arg9 (ix1 q)
  refine congrArg (V m c main_arg9) (funext fun a => Fin.ext ?_)
  have e0 := idx_b2 t
  match a with
  | ⟨0, _⟩ => show win0_9.index t (0 : Fin 1) * 256 + 1 * q.val = q.val; omega

theorem blk_g3 (c : Dev nD) (t : Fin cfg0.N) (q : Fin 256) :
    (iblk m c 10 t : S256.Idx → EReal) (ix1 q) = m ((c : Thread nD τ).loc main_arg10) (ix1 q) := by
  rw [← V_main_arg10 m c]
  show V m c main_arg10 (((cfg0.win 10).blk t).view.emb (ix1 q)) = V m c main_arg10 (ix1 q)
  refine congrArg (V m c main_arg10) (funext fun a => Fin.ext ?_)
  have e0 := idx_g3 t
  match a with
  | ⟨0, _⟩ => show win0_10.index t (0 : Fin 1) * 256 + 1 * q.val = q.val; omega

theorem blk_b3 (c : Dev nD) (t : Fin cfg0.N) (q : Fin 256) :
    (iblk m c 11 t : S256.Idx → EReal) (ix1 q) = m ((c : Thread nD τ).loc main_arg11) (ix1 q) := by
  rw [← V_main_arg11 m c]
  show V m c main_arg11 (((cfg0.win 11).blk t).view.emb (ix1 q)) = V m c main_arg11 (ix1 q)
  refine congrArg (V m c main_arg11) (funext fun a => Fin.ext ?_)
  have e0 := idx_b3 t
  match a with
  | ⟨0, _⟩ => show win0_11.index t (0 : Fin 1) * 256 + 1 * q.val = q.val; omega

/-! ## What a point writes back, and the final array -/

/-- Entry (n, k) of point t's output block is entry (16·t + n, k) of the array. -/
theorem emb_out (t : Fin cfg0.N) (n : Fin 16) (k : Fin 256) :
    ((cfg0.win 12).blk t).view.emb (ix2 n k) = ix2 (row t n) k := by
  funext a; apply Fin.ext
  obtain ⟨e0, e1⟩ := idx_out t
  match a with
  | ⟨0, _⟩ => show win0_12.index t (0 : Fin 2) * 16 + 1 * n.val = 16 * t.val + n.val; omega
  | ⟨1, _⟩ => show win0_12.index t (1 : Fin 2) * 256 + 1 * k.val = k.val; omega

/-- WHAT POINT t WRITES BACK is block t of `G`. -/
theorem flushed_eq (c : Dev nD) (t : Fin cfg0.N) :
    (dats m 0 c).flushed 12 t = ((cfg0.win 12).blk t).view.read (Elt Ideal) (G m c) := by
  rw [Cert.KernelIdeal.Value.flushed12, out0_12_eq_body, View.canon_unit_zero zeros2]
  funext j
  obtain ⟨n, k, rfl⟩ : ∃ (n : Fin 16) (k : Fin 256), j = ix2 n k := ⟨j 0, j 1, eq_ix2 j⟩
  show body (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 n k)
    = G m c (((cfg0.win 12).blk t).view.emb (ix2 n k))
  rw [emb_out, body_apply]
  simp only [blk_feat, blk_pool, blk_wdyn, blk_wout, blk_bdyn, blk_bout, blk_g1, blk_b1, blk_g2, blk_b2, blk_g3, blk_b3]
  rfl

/-- An index of the array is in point t's block iff each coordinate is in the block's range on its axis. -/
theorem mem_blk (t : Fin cfg0.N) (i : S2000x256.Idx) :
    i ∈ ((cfg0.win 12).blk t).view.set ↔ ∀ a : Fin 2, win0_12.index t a * S16x256.size a ≤ (i a).val ∧ (i a).val < win0_12.index t a * S16x256.size a + S16x256.size a := by
  show i ∈ ((View.whole main_v4).slice (win0_12.rect t)).set ↔ _
  rw [View.set_slice_whole, Rect.mem_set_unit]
  exact Iff.rfl

/-- Every row of the array is in the block of the point that is its quotient by 16. -/
theorem cover (i : S2000x256.Idx) :
    ∃ t : Fin cfg0.N, (cfg0.win 12).flush t = true ∧ i ∈ ((cfg0.win 12).blk t).view.set := by
  have hi0 : (i 0).val < 2000 := (i 0).isLt
  have hi1 : (i 1).val < 256 := (i 1).isLt
  let t : Fin cfg0.N := ⟨(i 0).val / 16, by show (i 0).val / 16 < 125; omega⟩
  have tv : t.val = (i 0).val / 16 := rfl
  refine ⟨t, flush0_12 t, ?_⟩
  rw [mem_blk]
  obtain ⟨e0, e1⟩ := idx_out t
  intro a
  match a with
  | ⟨0, _⟩ => show win0_12.index t (0 : Fin 2) * 16 ≤ (i 0).val ∧ (i 0).val < win0_12.index t (0 : Fin 2) * 16 + 16; omega
  | ⟨1, _⟩ => show win0_12.index t (1 : Fin 2) * 256 ≤ (i 1).val ∧ (i 1).val < win0_12.index t (1 : Fin 2) * 256 + 256; omega

/-- THE ARRAY after the run is `G` of the argument arrays. -/
theorem final (c : Dev nD) : (dats m 0 c).arrAt 12 cfg0.N = G m c :=
  (dats m 0 c).arrAt_eq_of_cover 12 (G m c) (fun t _ => flushed_eq m c t) (cover)

/-- The kernel's run re-posted: the result array at `G` of the arguments, the arguments unchanged. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.Whole

end
-- ==== Proof.RefParams.lean ====
/-
  The reference's parameters and its two batched contractions, entry by entry, over the extended reals. The parameter
  array is the features times the dynamic weight plus the bias row; its two halves are reshaped row-major into a
  256 x 64 and a 64 x 256 matrix per instance; each `einsum` is a `dot_general` with the instance as batch axis, which
  at the ideal values is the plain sum over the contracted axis.
-/
import proofs.«169738_j79053168050560_1_alg».proof.Proof.RefRead
import proofs.«169738_j79053168050560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Idealize.ShloMosaic Idealize.ShloMosaic.ValueIdx Idealize.SL.Sem Idealize.ShloMosaic.StableHlo
open Cert.ReferenceIdeal Cert.ReferenceIdeal.Read
open scoped BigOperators

variable (x0 : (⟨S1x2000x256, .f32⟩ : BufTy).Contents (Elt Ideal)) (x1 : (⟨S49x2000x256, .f32⟩ : BufTy).Contents (Elt Ideal)) (x2 : (⟨S256x32768, .f32⟩ : BufTy).Contents (Elt Ideal)) (x3 : (⟨S32768, .f32⟩ : BufTy).Contents (Elt Ideal))
variable (x4 : (⟨S12544x256, .f32⟩ : BufTy).Contents (Elt Ideal)) (x5 : (⟨S256, .f32⟩ : BufTy).Contents (Elt Ideal)) (x6 x7 : (⟨S64, .f32⟩ : BufTy).Contents (Elt Ideal)) (x8 x9 x10 x11 : (⟨S256, .f32⟩ : BufTy).Contents (Elt Ideal))

/-- Row N, column k of the 2000 x 256 view of the features is entry (0, N, k) of the features. -/
private theorem idx_feat (N : Fin 2000) (c : Fin 32768) (k : Fin 256) :
    idx_main_v1 (lidx_main_v2 (ix2 N c) k) = ix3 (0 : Fin 1) N k :=
  funext fun a => Fin.ext (by
    match a with
    | ⟨0, _⟩ => rfl
    | ⟨1, _⟩ =>
      show (N.val * 256 + k.val) / 256 % 2000 = N.val
      have := N.isLt; have := k.isLt; omega
    | ⟨2, _⟩ =>
      show (N.val * 256 + k.val) % 256 = k.val
      have := k.isLt; omega)

/-- The weight's factor in term k of column c is its entry (k, c). -/
private theorem idx_weight (N : Fin 2000) (c : Fin 32768) (k : Fin 256) :
    ridx_main_v2 (ix2 N c) k = ix2 k c :=
  funext fun a => Fin.ext (by match a with | ⟨0, _⟩ => rfl | ⟨1, _⟩ => rfl)

/-- The bias row, broadcast over the instances, is read at column c. -/
private theorem idx_bias (N : Fin 2000) (c : Fin 32768) :
    idx_main_v3 (idx_main_v4 (ix2 N c)) = ix1 c :=
  funext fun a => Fin.ext (by match a with | ⟨0, _⟩ => rfl)

/-- Parameter c of instance N: the feature row times column c of the weight, plus the bias at c. -/
private theorem ref_param (N : Fin 2000) (c : Fin 32768) :
    val_main_v5 (F := Ideal) x0 x2 x3 (ix2 N c)
      = Cert.Dyn.param (fun j c => x2 (ix2 j c)) (fun c => x3 (ix1 c)) (fun j => x0 (ix3 (0 : Fin 1) N j)) c := by
  rw [val_main_v5_apply, val_main_v2_apply, val_main_v4_apply, val_main_v3_apply, idx_bias]
  unfold Cert.Dyn.param
  rw [Ideal.addf_def]
  congr 1
  refine Finset.sum_congr rfl fun k _ => ?_
  rw [val_main_v1_apply, idx_feat, idx_weight]

/-- Row-major, entry (h, d) of instance N's 256 x 64 block is column h·64 + d of row N, inside the first half. -/
private theorem idx_p1 (N : Fin 2000) (h : Fin 256) (d : Fin 64) :
    idx_main_v6 (idx_main_v7 (ix3 N h d)) = ix2 N (Cert.Dyn.lane1 h d) :=
  funext fun a => Fin.ext (by
    match a with
    | ⟨0, _⟩ =>
      show ((N.val * 256 + h.val) * 64 + d.val) / 16384 = N.val
      have := h.isLt; have := d.isLt; omega
    | ⟨1, _⟩ =>
      show ((N.val * 256 + h.val) * 64 + d.val) % 16384 = h.val * 64 + d.val
      have := h.isLt; have := d.isLt; omega)

/-- Row-major, entry (d, h) of instance N's 64 x 256 block is column 16384 + d·256 + h of row N: the second half. -/
private theorem idx_p2 (N : Fin 2000) (d : Fin 64) (h : Fin 256) :
    idx_main_v8 (idx_main_v9 (ix3 N d h)) = ix2 N (Cert.Dyn.lane2 d h) :=
  funext fun a => Fin.ext (by
    match a with
    | ⟨0, _⟩ =>
      show ((N.val * 64 + d.val) * 256 + h.val) / 16384 = N.val
      have := h.isLt; have := d.isLt; omega
    | ⟨1, _⟩ =>
      show 16384 + ((N.val * 64 + d.val) * 256 + h.val) % 16384 = 16384 + (d.val * 256 + h.val)
      have := h.isLt; have := d.isLt; omega)

/-- Term k of the first contraction reads the pooled rows, through the transpose, at (r, N, k). -/
private theorem idx_m1l (N : Fin 2000) (r : Fin 49) (d : Fin 64) (k : Fin 256) :
    idx_main_v0 (lidx_main_v10 (ix3 N r d) k) = ix3 r N k :=
  funext fun a => Fin.ext (by match a with | ⟨0, _⟩ => rfl | ⟨1, _⟩ => rfl | ⟨2, _⟩ => rfl)

/-- ... and the first matrix at (N, k, d). -/
private theorem idx_m1r (N : Fin 2000) (r : Fin 49) (d : Fin 64) (k : Fin 256) :
    ridx_main_v10 (ix3 N r d) k = ix3 N k d :=
  funext fun a => Fin.ext (by match a with | ⟨0, _⟩ => rfl | ⟨1, _⟩ => rfl | ⟨2, _⟩ => rfl)

/-- Term k of the second contraction reads the normalised row at (N, r, k). -/
private theorem idx_m2l (N : Fin 2000) (r : Fin 49) (h : Fin 256) (k : Fin 64) :
    lidx_main_v36 (ix3 N r h) k = ix3 N r k :=
  funext fun a => Fin.ext (by match a with | ⟨0, _⟩ => rfl | ⟨1, _⟩ => rfl | ⟨2, _⟩ => rfl)

/-- ... and the second matrix at (N, k, h). -/
private theorem idx_m2r (N : Fin 2000) (r : Fin 49) (h : Fin 256) (k : Fin 64) :
    ridx_main_v36 (ix3 N r h) k = ix3 N k h :=
  funext fun a => Fin.ext (by match a with | ⟨0, _⟩ => rfl | ⟨1, _⟩ => rfl | ⟨2, _⟩ => rfl)

/-- Entry (h, d) of instance N's first parameter matrix. -/
theorem ref_p1 (N : Fin 2000) (h : Fin 256) (d : Fin 64) :
    val_main_v7 (F := Ideal) x0 x2 x3 (ix3 N h d)
      = Cert.Dyn.param (fun j c => x2 (ix2 j c)) (fun c => x3 (ix1 c)) (fun j => x0 (ix3 (0 : Fin 1) N j)) (Cert.Dyn.lane1 h d) := by
  rw [val_main_v7_apply, val_main_v6_apply, idx_p1]
  exact ref_param x0 x2 x3 N _

/-- Entry (d, h) of instance N's second parameter matrix. -/
theorem ref_p2 (N : Fin 2000) (d : Fin 64) (h : Fin 256) :
    val_main_v9 (F := Ideal) x0 x2 x3 (ix3 N d h)
      = Cert.Dyn.param (fun j c => x2 (ix2 j c)) (fun c => x3 (ix1 c)) (fun j => x0 (ix3 (0 : Fin 1) N j)) (Cert.Dyn.lane2 d h) := by
  rw [val_main_v9_apply, val_main_v8_apply, idx_p2]
  exact ref_param x0 x2 x3 N _

/-- The first contraction: position r's pooled row of instance N (read through the transpose) times the first matrix. -/
theorem ref_mid1 (N : Fin 2000) (r : Fin 49) (d : Fin 64) :
    val_main_v10 (F := Ideal) x0 x1 x2 x3 (ix3 N r d)
      = ∑ h : Fin 256, x1 (ix3 r N h) * val_main_v7 (F := Ideal) x0 x2 x3 (ix3 N h d) := by
  rw [val_main_v10_apply]
  refine Finset.sum_congr rfl fun k _ => ?_
  rw [val_main_v0_apply, idx_m1l, idx_m1r]

/-- The second contraction: the normalised 64-lane row times the second matrix. -/
theorem ref_mid2 (N : Fin 2000) (r : Fin 49) (h : Fin 256) :
    val_main_v36 (F := Ideal) x0 x1 x2 x3 x6 x7 (ix3 N r h)
      = ∑ d : Fin 64, val_main_v35 (F := Ideal) x0 x1 x2 x3 x6 x7 (ix3 N r d) * val_main_v9 (F := Ideal) x0 x2 x3 (ix3 N d h) := by
  rw [val_main_v36_apply]
  refine Finset.sum_congr rfl fun k _ => ?_
  rw [idx_m2l, idx_m2r]

end Cert.ReferenceIdeal.Stages

end
-- ==== Proof.RefNorm1.lean ====
/-
  The reference's first normalisation (over the 64 lanes of each instance and position), entry by entry: the mean and
  the variance are host sums from a zero initial value divided by the lane-count word, kept as a unit axis and
  broadcast back; scale and shift broadcast along the leading axes; the clamp is the outlined relu.
-/
import proofs.«169738_j79053168050560_1_alg».proof.Proof.RefRead
import proofs.«169738_j79053168050560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Idealize.ShloMosaic Idealize.ShloMosaic.ValueIdx Idealize.SL.Sem Idealize.ShloMosaic.StableHlo
open Cert.ReferenceIdeal Cert.ReferenceIdeal.Read
open scoped BigOperators

variable (x0 : (⟨S1x2000x256, .f32⟩ : BufTy).Contents (Elt Ideal)) (x1 : (⟨S49x2000x256, .f32⟩ : BufTy).Contents (Elt Ideal)) (x2 : (⟨S256x32768, .f32⟩ : BufTy).Contents (Elt Ideal)) (x3 : (⟨S32768, .f32⟩ : BufTy).Contents (Elt Ideal))
variable (x4 : (⟨S12544x256, .f32⟩ : BufTy).Contents (Elt Ideal)) (x5 : (⟨S256, .f32⟩ : BufTy).Contents (Elt Ideal)) (x6 x7 : (⟨S64, .f32⟩ : BufTy).Contents (Elt Ideal)) (x8 x9 x10 x11 : (⟨S256, .f32⟩ : BufTy).Contents (Elt Ideal))

/-- The lane sum's operand index, seen through the unit axis kept after the sum, is the lane itself. -/
private theorem idx_sum1 (N : Fin 2000) (r : Fin 49) (k : Fin 64) :
    idx_main_v11 (idx_main_v12 (ix3 N r (0 : Fin 1))) k = ix3 N r k :=
  funext fun a => Fin.ext (by match a with | ⟨0, _⟩ => rfl | ⟨1, _⟩ => rfl | ⟨2, _⟩ => rfl)

/-- The same for the second lane sum (the squared deviations). -/
private theorem idx_sum2 (N : Fin 2000) (r : Fin 49) (k : Fin 64) :
    idx_main_v18 (idx_main_v19 (ix3 N r (0 : Fin 1))) k = ix3 N r k :=
  funext fun a => Fin.ext (by match a with | ⟨0, _⟩ => rfl | ⟨1, _⟩ => rfl | ⟨2, _⟩ => rfl)

/-- Broadcasting the unit axis back over the 64 lanes reads the single entry of that axis. -/
private theorem idx_back15 (N : Fin 2000) (r : Fin 49) (d : Fin 64) :
    idx_main_v15 (ix3 N r d) = ix3 N r (0 : Fin 1) :=
  funext fun a => Fin.ext (by match a with | ⟨0, _⟩ => rfl | ⟨1, _⟩ => rfl | ⟨2, _⟩ => rfl)

private theorem idx_back22 (N : Fin 2000) (r : Fin 49) (d : Fin 64) :
    idx_main_v22 (ix3 N r d) = ix3 N r (0 : Fin 1) :=
  funext fun a => Fin.ext (by match a with | ⟨0, _⟩ => rfl | ⟨1, _⟩ => rfl | ⟨2, _⟩ => rfl)

private theorem idx_back27 (N : Fin 2000) (r : Fin 49) (d : Fin 64) :
    idx_main_v27 (ix3 N r d) = ix3 N r (0 : Fin 1) :=
  funext fun a => Fin.ext (by match a with | ⟨0, _⟩ => rfl | ⟨1, _⟩ => rfl | ⟨2, _⟩ => rfl)

/-- Scale and shift are broadcast along the two leading axes: entry (N, r, d) reads lane d. -/
private theorem idx_gain (N : Fin 2000) (r : Fin 49) (d : Fin 64) :
    idx_main_v29 (idx_main_v30 (ix3 N r d)) = ix1 d :=
  funext fun a => Fin.ext (by match a with | ⟨0, _⟩ => rfl)

private theorem idx_shift (N : Fin 2000) (r : Fin 49) (d : Fin 64) :
    idx_main_v32 (idx_main_v33 (ix3 N r d)) = ix1 d :=
  funext fun a => Fin.ext (by match a with | ⟨0, _⟩ => rfl)

/-- The kept-axis mean entry: the sum of the 64 lanes from a zero initial value, divided by the lane-count word. -/
private theorem mean_entry (N : Fin 2000) (r : Fin 49) :
    val_main_v14 (F := Ideal) x0 x1 x2 x3 (ix3 N r (0 : Fin 1))
      = Cert.Dyn.mean Cert.Dyn.c64 (fun i => val_main_v10 (F := Ideal) x0 x1 x2 x3 (ix3 N r i)) := by
  rw [val_main_v14_apply, val_main_v12_apply, val_main_v11_apply, val_main_v13_apply, val_main_cst_0_apply,
    val_main_cst_apply]
  generalize val_main_v10 (F := Ideal) x0 x1 x2 x3 = y
  simp only [idx_sum1, Ideal.hostDivf_def, Ideal.ofBits_def, Ideal.ofBits_zero_f32, zero_add]
  rfl

/-- The kept-axis variance entry: the mean of the squared deviations from the mean entry. -/
private theorem var_entry (N : Fin 2000) (r : Fin 49) :
    val_main_v21 (F := Ideal) x0 x1 x2 x3 (ix3 N r (0 : Fin 1))
      = Cert.Dyn.var Cert.Dyn.c64 (fun i => val_main_v10 (F := Ideal) x0 x1 x2 x3 (ix3 N r i)) := by
  rw [val_main_v21_apply, val_main_v19_apply, val_main_v18_apply, val_main_v20_apply, val_main_cst_2_apply,
    val_main_cst_1_apply]
  simp only [val_main_v17_apply, val_main_v16_apply, val_main_v15_apply, idx_sum2, idx_back15, mean_entry]
  generalize val_main_v10 (F := Ideal) x0 x1 x2 x3 = y
  simp only [Ideal.hostDivf_def, Ideal.subf_def, Ideal.mulf_def, Ideal.ofBits_def, Ideal.ofBits_zero_f32, zero_add]
  rfl

theorem ref_act1 (N : Fin 2000) (r : Fin 49) (d : Fin 64) :
    val_main_v35 (F := Ideal) x0 x1 x2 x3 x6 x7 (ix3 N r d)
      = Cert.Dyn.normRelu Cert.Dyn.c64 (fun i => val_main_v10 (F := Ideal) x0 x1 x2 x3 (ix3 N r i))
          (fun i => x6 (ix1 i)) (fun i => x7 (ix1 i)) d := by
  rw [val_main_v35_apply, val_main_v34_apply, val_main_v31_apply, val_main_v28_apply, val_main_v23_apply,
    val_main_v22_apply, val_main_v27_apply, val_main_v26_apply, val_main_v25_apply, val_main_v24_apply,
    val_main_cst_3_apply, val_main_v30_apply, val_main_v29_apply, val_main_v33_apply, val_main_v32_apply,
    val_main_call0_v0_apply, val_main_call0_cst_apply]
  simp only [idx_back22, idx_back27, idx_gain, idx_shift, mean_entry, var_entry]
  generalize val_main_v10 (F := Ideal) x0 x1 x2 x3 = y
  simp only [Ideal.maximumf_def, Ideal.addf_def, Ideal.mulf_def, Ideal.subf_def, Ideal.hostUnary_rsqrt_def,
    Ideal.ofBits_def]
  rfl

end Cert.ReferenceIdeal.Stages

end
-- ==== Proof.RefNorm2.lean ====
/-
  The reference's second normalisation (over the 256 lanes of each instance and position), entry by entry; the same
  chain of host operations as the first at another lane count.
-/
import proofs.«169738_j79053168050560_1_alg».proof.Proof.RefRead
import proofs.«169738_j79053168050560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Idealize.ShloMosaic Idealize.ShloMosaic.ValueIdx Idealize.SL.Sem Idealize.ShloMosaic.StableHlo
open Cert.ReferenceIdeal Cert.ReferenceIdeal.Read
open scoped BigOperators

variable (x0 : (⟨S1x2000x256, .f32⟩ : BufTy).Contents (Elt Ideal)) (x1 : (⟨S49x2000x256, .f32⟩ : BufTy).Contents (Elt Ideal)) (x2 : (⟨S256x32768, .f32⟩ : BufTy).Contents (Elt Ideal)) (x3 : (⟨S32768, .f32⟩ : BufTy).Contents (Elt Ideal))
variable (x4 : (⟨S12544x256, .f32⟩ : BufTy).Contents (Elt Ideal)) (x5 : (⟨S256, .f32⟩ : BufTy).Contents (Elt Ideal)) (x6 x7 : (⟨S64, .f32⟩ : BufTy).Contents (Elt Ideal)) (x8 x9 x10 x11 : (⟨S256, .f32⟩ : BufTy).Contents (Elt Ideal))

/-- The lane sum's operand index, seen through the unit axis kept after the sum, is the lane itself. -/
private theorem idx_sum1 (N : Fin 2000) (r : Fin 49) (k : Fin 256) :
    idx_main_v37 (idx_main_v38 (ix3 N r (0 : Fin 1))) k = ix3 N r k :=
  funext fun a => Fin.ext (by match a with | ⟨0, _⟩ => rfl | ⟨1, _⟩ => rfl | ⟨2, _⟩ => rfl)

/-- The same for the second lane sum (the squared deviations). -/
private theorem idx_sum2 (N : Fin 2000) (r : Fin 49) (k : Fin 256) :
    idx_main_v44 (idx_main_v45 (ix3 N r (0 : Fin 1))) k = ix3 N r k :=
  funext fun a => Fin.ext (by match a with | ⟨0, _⟩ => rfl | ⟨1, _⟩ => rfl | ⟨2, _⟩ => rfl)

/-- Broadcasting the unit axis back over the 256 lanes reads the single entry of that axis. -/
private theorem idx_back41 (N : Fin 2000) (r : Fin 49) (h : Fin 256) :
    idx_main_v41 (ix3 N r h) = ix3 N r (0 : Fin 1) :=
  funext fun a => Fin.ext (by match a with | ⟨0, _⟩ => rfl | ⟨1, _⟩ => rfl | ⟨2, _⟩ => rfl)

private theorem idx_back48 (N : Fin 2000) (r : Fin 49) (h : Fin 256) :
    idx_main_v48 (ix3 N r h) = ix3 N r (0 : Fin 1) :=
  funext fun a => Fin.ext (by match a with | ⟨0, _⟩ => rfl | ⟨1, _⟩ => rfl | ⟨2, _⟩ => rfl)

private theorem idx_back53 (N : Fin 2000) (r : Fin 49) (h : Fin 256) :
    idx_main_v53 (ix3 N r h) = ix3 N r (0 : Fin 1) :=
  funext fun a => Fin.ext (by match a with | ⟨0, _⟩ => rfl | ⟨1, _⟩ => rfl | ⟨2, _⟩ => rfl)

/-- Scale and shift are broadcast along the two leading axes: entry (N, r, h) reads lane h. -/
private theorem idx_gain (N : Fin 2000) (r : Fin 49) (h : Fin 256) :
    idx_main_v55 (idx_main_v56 (ix3 N r h)) = ix1 h :=
  funext fun a => Fin.ext (by match a with | ⟨0, _⟩ => rfl)

private theorem idx_shift (N : Fin 2000) (r : Fin 49) (h : Fin 256) :
    idx_main_v58 (idx_main_v59 (ix3 N r h)) = ix1 h :=
  funext fun a => Fin.ext (by match a with | ⟨0, _⟩ => rfl)

/-- The kept-axis mean entry: the sum of the 256 lanes from a zero initial value, divided by the lane-count word. -/
private theorem mean_entry (N : Fin 2000) (r : Fin 49) :
    val_main_v40 (F := Ideal) x0 x1 x2 x3 x6 x7 (ix3 N r (0 : Fin 1))
      = Cert.Dyn.mean Cert.Dyn.c256 (fun i => val_main_v36 (F := Ideal) x0 x1 x2 x3 x6 x7 (ix3 N r i)) := by
  rw [val_main_v40_apply, val_main_v38_apply, val_main_v37_apply, val_main_v39_apply, val_main_cst_5_apply,
    val_main_cst_4_apply]
  generalize val_main_v36 (F := Ideal) x0 x1 x2 x3 x6 x7 = y
  simp only [idx_sum1, Ideal.hostDivf_def, Ideal.ofBits_def, Ideal.ofBits_zero_f32, zero_add]
  rfl

/-- The kept-axis variance entry: the mean of the squared deviations from the mean entry. -/
private theorem var_entry (N : Fin 2000) (r : Fin 49) :
    val_main_v47 (F := Ideal) x0 x1 x2 x3 x6 x7 (ix3 N r (0 : Fin 1))
      = Cert.Dyn.var Cert.Dyn.c256 (fun i => val_main_v36 (F := Ideal) x0 x1 x2 x3 x6 x7 (ix3 N r i)) := by
  rw [val_main_v47_apply, val_main_v45_apply, val_main_v44_apply, val_main_v46_apply, val_main_cst_7_apply,
    val_main_cst_6_apply]
  simp only [val_main_v43_apply, val_main_v42_apply, val_main_v41_apply, idx_sum2, idx_back41, mean_entry]
  generalize val_main_v36 (F := Ideal) x0 x1 x2 x3 x6 x7 = y
  simp only [Ideal.hostDivf_def, Ideal.subf_def, Ideal.mulf_def, Ideal.ofBits_def, Ideal.ofBits_zero_f32, zero_add]
  rfl

theorem ref_act2 (N : Fin 2000) (r : Fin 49) (h : Fin 256) :
    val_main_v61 (F := Ideal) x0 x1 x2 x3 x6 x7 x8 x9 (ix3 N r h)
      = Cert.Dyn.normRelu Cert.Dyn.c256 (fun i => val_main_v36 (F := Ideal) x0 x1 x2 x3 x6 x7 (ix3 N r i))
          (fun i => x8 (ix1 i)) (fun i => x9 (ix1 i)) h := by
  rw [val_main_v61_apply, val_main_v60_apply, val_main_v57_apply, val_main_v54_apply, val_main_v49_apply,
    val_main_v48_apply, val_main_v53_apply, val_main_v52_apply, val_main_v51_apply, val_main_v50_apply,
    val_main_cst_8_apply, val_main_v56_apply, val_main_v55_apply, val_main_v59_apply, val_main_v58_apply,
    val_main_call1_v0_apply, val_main_call1_cst_apply]
  simp only [idx_back48, idx_back53, idx_gain, idx_shift, mean_entry, var_entry]
  generalize val_main_v36 (F := Ideal) x0 x1 x2 x3 x6 x7 = y
  simp only [Ideal.maximumf_def, Ideal.addf_def, Ideal.mulf_def, Ideal.subf_def, Ideal.hostUnary_rsqrt_def,
    Ideal.ofBits_def]
  rfl

end Cert.ReferenceIdeal.Stages

end
-- ==== Proof.RefOut.lean ====
/-
  The reference's output contraction and last normalisation, entry by entry. The 49 x 256 rows of an instance are
  flattened row-major to 12544 numbers and contracted with the output weight in ONE sum, which is the double sum over
  position and lane (`Cert.Dyn.sum_flat`); the bias row is added; the last normalisation runs over the 256 output
  lanes of each instance.
-/
import proofs.«169738_j79053168050560_1_alg».proof.Proof.RefRead
import proofs.«169738_j79053168050560_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Stages

open Idealize.ShloMosaic Idealize.ShloMosaic.ValueIdx Idealize.SL.Sem Idealize.ShloMosaic.StableHlo
open Cert.ReferenceIdeal Cert.ReferenceIdeal.Read
open scoped BigOperators

variable (x0 : (⟨S1x2000x256, .f32⟩ : BufTy).Contents (Elt Ideal)) (x1 : (⟨S49x2000x256, .f32⟩ : BufTy).Contents (Elt Ideal)) (x2 : (⟨S256x32768, .f32⟩ : BufTy).Contents (Elt Ideal)) (x3 : (⟨S32768, .f32⟩ : BufTy).Contents (Elt Ideal))
variable (x4 : (⟨S12544x256, .f32⟩ : BufTy).Contents (Elt Ideal)) (x5 : (⟨S256, .f32⟩ : BufTy).Contents (Elt Ideal)) (x6 x7 : (⟨S64, .f32⟩ : BufTy).Contents (Elt Ideal)) (x8 x9 x10 x11 : (⟨S256, .f32⟩ : BufTy).Contents (Elt Ideal))

/-- The bias row broadcast over the instances, read at (N, k), is entry k of the bias. -/
private theorem idx_bias (N : Fin 2000) (k : Fin 256) : idx_main_v64 (idx_main_v65 (ix2 N k)) = ix1 k :=
  funext fun a => Fin.ext (by match a with | ⟨0, _⟩ => rfl)

/-- Row-major flattening: position r*256 + h of instance N's flattened row is lane h of its position r, because
    (N*12544 + r*256 + h) / 12544 = N, (N*12544 + r*256 + h) / 256 % 49 = r and (N*12544 + r*256 + h) % 256 = h
    for r < 49 and h < 256. -/
private theorem idx_flat_l (N : Fin 2000) (k : Fin 256) (r : Fin 49) (h : Fin 256) :
    idx_main_v62 (lidx_main_v63 (ix2 N k) (Cert.Dyn.flat r h)) = ix3 N r h :=
  funext fun a => Fin.ext (by
    have hr := r.isLt; have hh := h.isLt; have hN := N.isLt
    match a with
    | ⟨0, _⟩ => show (N.val * 12544 + (r.val * 256 + h.val)) / 12544 = N.val; omega
    | ⟨1, _⟩ => show (N.val * 12544 + (r.val * 256 + h.val)) / 256 % 49 = r.val; omega
    | ⟨2, _⟩ => show (N.val * 12544 + (r.val * 256 + h.val)) % 256 = h.val; omega)

/-- The weight's index in the contraction at flattened position q and output lane k is (q, k). -/
private theorem idx_flat_r (N : Fin 2000) (k : Fin 256) (r : Fin 49) (h : Fin 256) :
    ridx_main_v63 (ix2 N k) (Cert.Dyn.flat r h) = ix2 (Cert.Dyn.flat r h) k :=
  funext fun a => Fin.ext (by match a with | ⟨0, _⟩ => rfl | ⟨1, _⟩ => rfl)

/-- The output contraction plus bias, as the double sum over position r and lane h. -/
theorem ref_pre (N : Fin 2000) (k : Fin 256) :
    val_main_v66 (F := Ideal) x0 x1 x2 x3 x4 x5 x6 x7 x8 x9 (ix2 N k)
      = (∑ r : Fin 49, ∑ h : Fin 256, val_main_v61 (F := Ideal) x0 x1 x2 x3 x6 x7 x8 x9 (ix3 N r h) * x4 (ix2 (Cert.Dyn.flat r h) k))
        + x5 (ix1 k) := by
  rw [val_main_v66_apply, val_main_v63_apply, val_main_v65_apply, val_main_v64_apply, idx_bias]
  simp only [val_main_v62_apply]
  generalize val_main_v61 (F := Ideal) x0 x1 x2 x3 x6 x7 x8 x9 = y
  show (∑ q : Fin 12544, y (idx_main_v62 (lidx_main_v63 (ix2 N k) q)) * x4 (ridx_main_v63 (ix2 N k) q)) + x5 (ix1 k) = _
  refine congrArg (· + x5 (ix1 k)) ((Cert.Dyn.sum_flat _).trans ?_)
  refine Finset.sum_congr rfl fun r _ => Finset.sum_congr rfl fun h _ => ?_
  show y (idx_main_v62 (lidx_main_v63 (ix2 N k) (Cert.Dyn.flat r h))) * x4 (ridx_main_v63 (ix2 N k) (Cert.Dyn.flat r h)) = _
  rw [idx_flat_l, idx_flat_r]

/-- The mean column: the sum of the 256 lanes of instance N (onto a zero initial value) divided by the word of 256.0. -/
private theorem ref_mean (N : Fin 2000) (z : Fin 1) :
    val_main_v70 (F := Ideal) x0 x1 x2 x3 x4 x5 x6 x7 x8 x9 (ix2 N z)
      = Cert.Dyn.mean Cert.Dyn.c256 (fun i => val_main_v66 (F := Ideal) x0 x1 x2 x3 x4 x5 x6 x7 x8 x9 (ix2 N i)) := by
  rw [val_main_v70_apply, val_main_v68_apply, val_main_v67_apply, val_main_v69_apply, val_main_cst_10_apply,
    val_main_cst_9_apply]
  have e : ∀ i : Fin 256, idx_main_v67 (idx_main_v68 (ix2 N z)) i = ix2 N i := fun i =>
    funext fun a => Fin.ext (by match a with | ⟨0, _⟩ => rfl | ⟨1, _⟩ => rfl)
  simp only [e, Ideal.hostDivf_def, Ideal.ofBits_def, Ideal.ofBits_zero_f32, zero_add]
  rfl

/-- The variance column: the sum of the squared deviations from the mean, divided by the word of 256.0. -/
private theorem ref_var (N : Fin 2000) (z : Fin 1) :
    val_main_v77 (F := Ideal) x0 x1 x2 x3 x4 x5 x6 x7 x8 x9 (ix2 N z)
      = Cert.Dyn.var Cert.Dyn.c256 (fun i => val_main_v66 (F := Ideal) x0 x1 x2 x3 x4 x5 x6 x7 x8 x9 (ix2 N i)) := by
  rw [val_main_v77_apply, val_main_v75_apply, val_main_v74_apply, val_main_v76_apply, val_main_cst_12_apply,
    val_main_cst_11_apply]
  have e : ∀ i : Fin 256, idx_main_v74 (idx_main_v75 (ix2 N z)) i = ix2 N i := fun i =>
    funext fun a => Fin.ext (by match a with | ⟨0, _⟩ => rfl | ⟨1, _⟩ => rfl)
  have e71 : ∀ i : Fin 256, idx_main_v71 (ix2 N i) = ix2 N (⟨0, Nat.one_pos⟩ : Fin 1) := fun i =>
    funext fun a => Fin.ext (by match a with | ⟨0, _⟩ => rfl | ⟨1, _⟩ => rfl)
  simp only [e, val_main_v73_apply, val_main_v72_apply, val_main_v71_apply, e71, ref_mean, Ideal.hostDivf_def,
    Ideal.mulf_def, Ideal.subf_def, Ideal.ofBits_def, Ideal.ofBits_zero_f32, zero_add]
  rfl

/-- The last normalisation over the 256 output lanes. -/
theorem ref_out (N : Fin 2000) (k : Fin 256) :
    val_main_v91 (F := Ideal) x0 x1 x2 x3 x4 x5 x6 x7 x8 x9 x10 x11 (ix2 N k)
      = Cert.Dyn.normRelu Cert.Dyn.c256 (fun i => val_main_v66 (F := Ideal) x0 x1 x2 x3 x4 x5 x6 x7 x8 x9 (ix2 N i))
          (fun i => x10 (ix1 i)) (fun i => x11 (ix1 i)) k := by
  have e1 : idx_main_v78 (ix2 N k) = ix2 N (⟨0, Nat.one_pos⟩ : Fin 1) :=
    funext fun a => Fin.ext (by match a with | ⟨0, _⟩ => rfl | ⟨1, _⟩ => rfl)
  have e2 : idx_main_v83 (ix2 N k) = ix2 N (⟨0, Nat.one_pos⟩ : Fin 1) :=
    funext fun a => Fin.ext (by match a with | ⟨0, _⟩ => rfl | ⟨1, _⟩ => rfl)
  have e3 : idx_main_v85 (idx_main_v86 (ix2 N k)) = ix1 k :=
    funext fun a => Fin.ext (by match a with | ⟨0, _⟩ => rfl)
  have e4 : idx_main_v88 (idx_main_v89 (ix2 N k)) = ix1 k :=
    funext fun a => Fin.ext (by match a with | ⟨0, _⟩ => rfl)
  rw [val_main_v91_apply, val_main_v90_apply, val_main_v87_apply, val_main_v84_apply, val_main_v79_apply,
    val_main_v78_apply, val_main_v83_apply, val_main_v82_apply, val_main_v81_apply, val_main_v80_apply,
    val_main_cst_13_apply, val_main_v86_apply, val_main_v85_apply, val_main_v89_apply, val_main_v88_apply,
    val_main_call2_v0_apply, val_main_call2_cst_apply, e1, e2, e3, e4, ref_mean, ref_var]
  unfold Cert.Dyn.normRelu
  simp only [Ideal.maximumf_def, Ideal.addf_def, Ideal.mulf_def, Ideal.subf_def, Ideal.hostUnary_rsqrt_def,
    Ideal.ofBits_def]

end Cert.ReferenceIdeal.Stages

end
-- ==== Proof.RefAll.lean ====
/-
  The reference's result array, entry by entry, is the whole-array function `Cert.Dyn.whole` of its arguments: the stage
  lemmas composed, from the last normalisation inwards.
-/
import proofs.«169738_j79053168050560_1_alg».proof.Proof.RefParams
import proofs.«169738_j79053168050560_1_alg».proof.Proof.RefNorm1
import proofs.«169738_j79053168050560_1_alg».proof.Proof.RefNorm2
import proofs.«169738_j79053168050560_1_alg».proof.Proof.RefOut
import proofs.«169738_j79053168050560_1_alg».proof.Proof.SpecWhole

noncomputable section

namespace Cert.ReferenceIdeal.Stages

open Idealize.ShloMosaic Idealize.ShloMosaic.ValueIdx Idealize.SL.Sem Idealize.ShloMosaic.StableHlo
open Cert.ReferenceIdeal Cert.ReferenceIdeal.Read
open scoped BigOperators

variable (x0 : (⟨S1x2000x256, .f32⟩ : BufTy).Contents (Elt Ideal)) (x1 : (⟨S49x2000x256, .f32⟩ : BufTy).Contents (Elt Ideal)) (x2 : (⟨S256x32768, .f32⟩ : BufTy).Contents (Elt Ideal)) (x3 : (⟨S32768, .f32⟩ : BufTy).Contents (Elt Ideal))
variable (x4 : (⟨S12544x256, .f32⟩ : BufTy).Contents (Elt Ideal)) (x5 : (⟨S256, .f32⟩ : BufTy).Contents (Elt Ideal)) (x6 x7 : (⟨S64, .f32⟩ : BufTy).Contents (Elt Ideal)) (x8 x9 x10 x11 : (⟨S256, .f32⟩ : BufTy).Contents (Elt Ideal))

/-- Entry (N, k) of the reference's result is lane k of instance N's output row. -/
theorem ref_whole_apply (N : Fin 2000) (k : Fin 256) :
    val_main_v91 (F := Ideal) x0 x1 x2 x3 x4 x5 x6 x7 x8 x9 x10 x11 (ix2 N k)
      = Cert.Dyn.whole x0 x1 x2 x3 x4 x5 x6 x7 x8 x9 x10 x11 (ix2 N k) := by
  rw [ref_out]
  show _ = Cert.Dyn.outRow (fun j c => x2 (ix2 j c)) (fun c => x3 (ix1 c)) (fun d => x6 (ix1 d)) (fun d => x7 (ix1 d))
    (fun h => x8 (ix1 h)) (fun h => x9 (ix1 h)) (fun r h k => x4 (ix2 (Cert.Dyn.flat r h) k)) (fun k => x5 (ix1 k))
    (fun k => x10 (ix1 k)) (fun k => x11 (ix1 k)) (fun j => x0 (ix3 (0 : Fin 1) N j)) (fun r h => x1 (ix3 r N h)) k
  unfold Cert.Dyn.outRow Cert.Dyn.proj Cert.Dyn.act2 Cert.Dyn.mid2 Cert.Dyn.act1 Cert.Dyn.mid1
  simp only [ref_pre, ref_act2, ref_mid2, ref_act1, ref_mid1, ref_p1, ref_p2]

/-- The reference's result array is `Cert.Dyn.whole` of its arguments. -/
theorem ref_whole :
    val_main_v91 (F := Ideal) x0 x1 x2 x3 x4 x5 x6 x7 x8 x9 x10 x11 = Cert.Dyn.whole x0 x1 x2 x3 x4 x5 x6 x7 x8 x9 x10 x11 := by
  funext i
  obtain ⟨N, k, rfl⟩ : ∃ (N : Fin 2000) (k : Fin 256), i = ix2 N k := ⟨i 0, i 1, eq_ix2 i⟩
  exact ref_whole_apply x0 x1 x2 x3 x4 x5 x6 x7 x8 x9 x10 x11 N k

end Cert.ReferenceIdeal.Stages

end
-- ==== Proof.lean ====
/-
  The certificate of a dynamic-convolution head against its jnp reference, over the extended reals. Per instance the
  programs form dynamic parameters (features times a weight plus bias), split them into a 256 x 64 and a 64 x 256 matrix,
  and for each of 49 pooled positions contract the position's row with the first matrix, normalise 64 lanes and clamp
  at zero, contract with the second, normalise 256 lanes and clamp; the 49 rows are contracted with the output weight,
  a bias is added, and a last normalisation over 256 lanes and a clamp give the instance's row.

  The kernel handles 16 instances per grid point and accumulates the output contraction position by position onto a
  zero accumulator; the reference takes ONE sum over the flattened 49·256 axis. Both are the same finite sum in a
  commutative monoid (`Cert.Dyn.sum_range_acc`, `Cert.Dyn.sum_flat`), every other operation is the same on both sides,
  and a change of float format is the identity here; so the two result arrays are ONE function of the arguments,
  `Cert.Dyn.whole`, and the precondition (finite inputs) is never opened.

  The kernel's side: the body as 49 repetitions of one step (Proof/Folded, FoldedEq), each piece read entry by entry
  (ReadDyn, ReadContract, ReadNorm, ReadBody), and the blocks assembled into the array (Blocks). The reference's side:
  its stages read entry by entry (RefParams, RefNorm1, RefNorm2, RefOut, RefAll) over its run. The kernel has no
  rewritten constant, so it is its own idealization.
-/
import proofs.«169738_j79053168050560_1_alg».proof.Defs
import proofs.«169738_j79053168050560_1_alg».proof.Proof.Gen.Kernel
import proofs.«169738_j79053168050560_1_alg».proof.Proof.Gen.Kernel.Frame
import proofs.«169738_j79053168050560_1_alg».proof.Proof.Gen.KernelIdeal
import proofs.«169738_j79053168050560_1_alg».proof.Proof.Gen.KernelIdeal.Frame
import proofs.«169738_j79053168050560_1_alg».proof.Proof.Gen.KernelIdeal.Value
import proofs.«169738_j79053168050560_1_alg».proof.Proof.Gen.ReferenceIdeal
import proofs.«169738_j79053168050560_1_alg».proof.Proof.Gen.Pre_finite_inputs
import proofs.«169738_j79053168050560_1_alg».proof.Proof.RefRun
import proofs.«169738_j79053168050560_1_alg».proof.Proof.RefRead
import proofs.«169738_j79053168050560_1_alg».proof.Proof.Blocks
import proofs.«169738_j79053168050560_1_alg».proof.Proof.RefAll
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both result arrays are `Cert.Dyn.whole` of arguments that agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v91_eq, h0, h1, h2, h3, h4, h5, h6, h7, h8, h9, h10, h11]
  exact Cert.ReferenceIdeal.Stages.ref_whole _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
